-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x8192 : Shape := ⟨3, ![4, 256, 8192]⟩
abbrev S8192x256x32 : Shape := ⟨3, ![8192, 256, 32]⟩
abbrev S8192x256 : Shape := ⟨2, ![8192, 256]⟩
abbrev S16x8192 : Shape := ⟨2, ![16, 8192]⟩
abbrev S8192x16 : Shape := ⟨2, ![8192, 16]⟩
abbrev S8192 : Shape := ⟨1, ![8192]⟩
abbrev S_ : Shape := ⟨0, ![]⟩

class Facts : Prop where
  bcast_S_S4x256x8192 : S_.BroadcastsInDim S4x256x8192 (![] : Fin 0 → Fin S4x256x8192.rank)
  reducesTo_S4x256x8192_S_d0_1_2 : S4x256x8192.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S16x8192 : S_.BroadcastsInDim S16x8192 (![] : Fin 0 → Fin S16x8192.rank)
  reducesTo_S16x8192_S_d0_1 : S16x8192.ReducesTo [0, 1] S_
  bcast_S_S8192x16 : S_.BroadcastsInDim S8192x16 (![] : Fin 0 → Fin S8192x16.rank)
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg5 : FVec F S8192 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S4x256x8192 .f32) (main_arg1 : IVec S8192x256x32 32) (main_arg2 : FVec F S8192x256 .f32) (main_arg3 : FVec F S16x8192 .f32) (main_arg4 : FVec F S8192x16 .f32) (main_arg5 : FVec F S8192 .f32) : IVec S_ 1 :=
  let main_v0 : FVec F S4x256x8192 .f32 := Host.absf main_arg0
  let main_cst : FVec F S_ .f32 := constant S_ .f32 0x7F800000#32
  let main_v1 : FVec F S4x256x8192 .f32 := broadcastInDim S4x256x8192 ![] bcast_S_S4x256x8192 main_cst
  let main_v2 : IVec S4x256x8192 1 := cmpf .olt main_v0 main_v1
  let main_c : IVec S_ 1 := constantI S_ 1 1#1
  let main_v3 : IVec S_ 1 := (fun x v => Host.reduce IntOp.andi x v reducesTo_S4x256x8192_S_d0_1_2 h_S_) main_v2 main_c
  let main_v4 : FVec F S8192x256 .f32 := Host.absf main_arg2
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  let main_v14 : FVec F S8192x16 .f32 := Host.absf main_arg4
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg5 main_v13 main_v16
-- ==== Kernel.lean ====
abbrev S4x256x8192 : Shape := ⟨3, ![4, 256, 8192]⟩
abbrev S8192x256x32 : Shape := ⟨3, ![8192, 256, 32]⟩
abbrev S8192x256 : Shape := ⟨2, ![8192, 256]⟩
abbrev S16x8192 : Shape := ⟨2, ![16, 8192]⟩
abbrev S8192x16 : Shape := ⟨2, ![8192, 16]⟩
abbrev S8192 : Shape := ⟨1, ![8192]⟩
abbrev S8192x8192 : Shape := ⟨2, ![8192, 8192]⟩
abbrev S64x128x32 : Shape := ⟨3, ![64, 128, 32]⟩
abbrev S64x128 : Shape := ⟨2, ![64, 128]⟩
abbrev S16x4096 : Shape := ⟨2, ![16, 4096]⟩
abbrev S64x16 : Shape := ⟨2, ![64, 16]⟩
abbrev S64x4096 : Shape := ⟨2, ![64, 4096]⟩
abbrev S64x128x1 : Shape := ⟨3, ![64, 128, 1]⟩
abbrev S1024x8192 : Shape := ⟨2, ![1024, 8192]⟩
abbrev S1x8192 : Shape := ⟨2, ![1, 8192]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩

abbrev nBuf : Space → Nat
  | .hbm => 11
  | .vmem => 19
  | .smem => 0
  | _ => 0

abbrev bufTy : (tb : Table) → Fin (tcTables nBuf tb) → BufTy
  | .hbm, ⟨0, _⟩ => ⟨S4x256x8192, .f32⟩
  | .hbm, ⟨1, _⟩ => ⟨S8192x256x32, .i32⟩
  | .hbm, ⟨2, _⟩ => ⟨S8192x256, .f32⟩
  | .hbm, ⟨3, _⟩ => ⟨S16x8192, .f32⟩
  | .hbm, ⟨4, _⟩ => ⟨S8192x16, .f32⟩
  | .hbm, ⟨5, _⟩ => ⟨S8192, .f32⟩
  | .hbm, ⟨6, _⟩ => ⟨S8192x8192, .bf16⟩
  | .hbm, ⟨7, _⟩ => ⟨S1024x8192, .f32⟩
  | .hbm, ⟨8, _⟩ => ⟨S1x8192, .f32⟩
  | .hbm, ⟨9, _⟩ => ⟨S1024x8192, .f32⟩
  | .hbm, ⟨10, _⟩ => ⟨S4x256x8192, .f32⟩
  | .local _ .vmem, ⟨0, _⟩ => ⟨S64x128x32, .i32⟩
  | .local _ .vmem, ⟨1, _⟩ => ⟨S64x128x32, .i32⟩
  | .local _ .vmem, ⟨2, _⟩ => ⟨S64x128, .f32⟩
  | .local _ .vmem, ⟨3, _⟩ => ⟨S64x128, .f32⟩
  | .local _ .vmem, ⟨4, _⟩ => ⟨S16x4096, .f32⟩
  | .local _ .vmem, ⟨5, _⟩ => ⟨S16x4096, .f32⟩
  | .local _ .vmem, ⟨6, _⟩ => ⟨S64x16, .f32⟩
  | .local _ .vmem, ⟨7, _⟩ => ⟨S64x16, .f32⟩
  | .local _ .vmem, ⟨8, _⟩ => ⟨S64x4096, .bf16⟩
  | .local _ .vmem, ⟨9, _⟩ => ⟨S64x4096, .bf16⟩
  | .local _ .vmem, ⟨10, _⟩ => ⟨S512x2048, .f32⟩
  | .local _ .vmem, ⟨11, _⟩ => ⟨S512x2048, .f32⟩
  | .local _ .vmem, ⟨12, _⟩ => ⟨S1024x2048, .bf16⟩
  | .local _ .vmem, ⟨13, _⟩ => ⟨S1024x2048, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S4x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![128, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S64x128x32_S64x128x32_0_0_0 : ∀ a, (![0, 0, 0] : Fin 3 → Nat) a + S64x128x32.size a ≤ S64x128x32.size a
  h_S64x128x32 : 0 < S64x128x32.numel
  inb_S64x128_S64x128_0_0 : ∀ a, (![0, 0] : Fin 2 → Nat) a + S64x128.size a ≤ S64x128.size a
  h_S64x128 : 0 < S64x128.numel
  shapeCasts_S64x128_S64x128x1 : S64x128.ShapeCasts S64x128x1
  broadcasts_S64x128x1_S64x128x32 : S64x128x1.Broadcasts S64x128x32
  shapeCasts_S64x128x32_S64x4096 : S64x128x32.ShapeCasts S64x4096
  inb_S64x16_S64x16_0_0 : ∀ a, (![0, 0] : Fin 2 → Nat) a + S64x16.size a ≤ S64x16.size a
  h_S64x16 : 0 < S64x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S64x4096_S64x4096_0_0 : ∀ a, (![0, 0] : Fin 2 → Nat) a + S64x4096.size a ≤ S64x4096.size a
  h_S64x4096 : 0 < S64x4096.numel
  packedbf16_S64x4096_S64x4096_0_0 : (Rect.unit (s := S64x4096) ![0, 0] S64x4096.size inb_S64x4096_S64x4096_0_0).PackedRows (EltTy.packing .bf16)
  shapeCasts_S4x256x8192_S1024x8192 : S4x256x8192.ShapeCasts S1024x8192
  shapeCasts_S8192_S1x8192 : S8192.ShapeCasts S1x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S1024x8192_S4x256x8192 : S1024x8192.ShapeCasts S4x256x8192
  dot_S64x16_S16x4096_S64x4096_1_0_0_1_n_n_wf : DotDims.WF S64x16 S16x4096 S64x4096 [1] [0] [0] [1] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x32.size a ≤ S8192x256x32.size a
  hwx0_0 : ∀ i : grid0.Coords, EltTy.bits .i32 = 32 ∨ (Rect.block (s := S8192x256x32) S64x128x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S8192x256.size a
  hwx0_1 : ∀ i : grid0.Coords, EltTy.bits .f32 = 32 ∨ (Rect.block (s := S8192x256) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x8192.size a
  hwx0_2 : ∀ i : grid0.Coords, EltTy.bits .f32 = 32 ∨ (Rect.block (s := S16x8192) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S8192x16.size a
  hwx0_3 : ∀ i : grid0.Coords, EltTy.bits .f32 = 32 ∨ (Rect.block (s := S8192x16) S64x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S8192x8192.size a
  hwx0_4 : ∀ i : grid0.Coords, EltTy.bits .bf16 = 32 ∨ (Rect.block (s := S8192x8192) S64x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S1024x8192.size a
  hwx1_0 : ∀ i : grid1.Coords, EltTy.bits .f32 = 32 ∨ (Rect.block (s := S1024x8192) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x8192.size a
  hwx1_1 : ∀ i : grid1.Coords, EltTy.bits .bf16 = 32 ∨ (Rect.block (s := S8192x8192) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S1024x8192.size a
  hwx1_3 : ∀ i : grid1.Coords, EltTy.bits .f32 = 32 ∨ (Rect.block (s := S1024x8192) S512x1024.size (cc1_transform_3 i) (hinb1_3 i)).WholeWords (EltTy.packing .f32)

variable [Facts₀]

def dot_S64x16_S16x4096_S64x4096_1_0_0_1_n_n : DotDims S64x16 S16x4096 S64x4096 where
  lhsContracting := [1]
  rhsContracting := [0]
  lhsNonContracting := [0]
  rhsNonContracting := [1]
  lhsBatch := []
  rhsBatch := []
  wf := dot_S64x16_S16x4096_S64x4096_1_0_0_1_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg1) S64x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x256x8192 : Shape := ⟨3, ![4, 256, 8192]⟩
abbrev S8192x256x32 : Shape := ⟨3, ![8192, 256, 32]⟩
abbrev S8192x256 : Shape := ⟨2, ![8192, 256]⟩
abbrev S16x8192 : Shape := ⟨2, ![16, 8192]⟩
abbrev S8192x16 : Shape := ⟨2, ![8192, 16]⟩
abbrev S8192 : Shape := ⟨1, ![8192]⟩
abbrev S_ : Shape := ⟨0, ![]⟩
abbrev S8192x256x1 : Shape := ⟨3, ![8192, 256, 1]⟩
abbrev S8192x8192 : Shape := ⟨2, ![8192, 8192]⟩
abbrev S1x1x8192 : Shape := ⟨3, ![1, 1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4x256x8192, .f32⟩
  | .hbm, ⟨1, _⟩ => ⟨S8192x256x32, .i32⟩
  | .hbm, ⟨2, _⟩ => ⟨S8192x256, .f32⟩
  | .hbm, ⟨3, _⟩ => ⟨S16x8192, .f32⟩
  | .hbm, ⟨4, _⟩ => ⟨S8192x16, .f32⟩
  | .hbm, ⟨5, _⟩ => ⟨S8192, .f32⟩
  | .hbm, ⟨6, _⟩ => ⟨S8192x256x32, .f32⟩
  | .hbm, ⟨7, _⟩ => ⟨S_, .f32⟩
  | .hbm, ⟨8, _⟩ => ⟨S8192x256x32, .f32⟩
  | .hbm, ⟨9, _⟩ => ⟨S8192x256x32, .f32⟩
  | .hbm, ⟨10, _⟩ => ⟨S8192x256x1, .f32⟩
  | .hbm, ⟨11, _⟩ => ⟨S8192x256x32, .f32⟩
  | .hbm, ⟨12, _⟩ => ⟨S8192x256x32, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S4x256x8192, .f32⟩
  | .hbm, ⟨20, _⟩ => ⟨S1x1x8192, .f32⟩
  | .hbm, ⟨21, _⟩ => ⟨S4x256x8192, .f32⟩
  | .hbm, ⟨22, _⟩ => ⟨S4x256x8192, .f32⟩
  | _, _ => ⟨S4x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S8192x256x32 : S_.BroadcastsInDim S8192x256x32 (![] : Fin 0 → Fin S8192x256x32.rank)
  bcast_S8192x256_S8192x256x1_0_1 : S8192x256.BroadcastsInDim S8192x256x1 (![0, 1] : Fin 2 → Fin S8192x256x1.rank)
  bcast_S8192x256x1_S8192x256x32_0_1_2 : S8192x256x1.BroadcastsInDim S8192x256x32 (![0, 1, 2] : Fin 3 → Fin S8192x256x32.rank)
  shapeCasts_S8192x256x32_S8192x8192 : S8192x256x32.ShapeCasts S8192x8192
  bcast_S_S8192x8192 : S_.BroadcastsInDim S8192x8192 (![] : Fin 0 → Fin S8192x8192.rank)
  bcast_S8192_S1x1x8192_2 : S8192.BroadcastsInDim S1x1x8192 (![2] : Fin 1 → Fin S1x1x8192.rank)
  bcast_S1x1x8192_S4x256x8192_0_1_2 : S1x1x8192.BroadcastsInDim S4x256x8192 (![0, 1, 2] : Fin 3 → Fin S4x256x8192.rank)
  dot_S8192x16_S16x8192_S8192x8192_1_0_0_1_n_n_wf : DotDims.WF S8192x16 S16x8192 S8192x8192 [1] [0] [0] [1] [] []
  dot_S4x256x8192_S8192x8192_S4x256x8192_2_1_01_0_n_n_wf : DotDims.WF S4x256x8192 S8192x8192 S4x256x8192 [2] [1] [0, 1] [0] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S4x256x8192_S8192x8192_S4x256x8192_2_1_01_0_n_n : DotDims S4x256x8192 S8192x8192 S4x256x8192 where
  lhsContracting := [2]
  rhsContracting := [1]
  lhsNonContracting := [0, 1]
  rhsNonContracting := [0]
  lhsBatch := []
  rhsBatch := []
  wf := dot_S4x256x8192_S8192x8192_S4x256x8192_2_1_01_0_n_n_wf

class Facts : Prop extends Facts₀ where

variable [Facts]
-- ==== Proof.K.Body0.lean ====
/-
  The dequantising kernel's region (the first of the two), at any contents `V` of the core's buffers when the region
  is entered. Its grid has 128 × 2 points; at a point it is handed one block of the codes, of the scales and of each
  low-rank factor, and it stores one 64 × 4096 block of the weight, whole. So what the body leaves in the output's
  staging buffer is one function of the four input blocks, each input's buffer holds its block at every point (fetched
  there or, the block index not having moved, left from the point before), nothing is carried between points, and the
  region's invariant is the scoped buffers it does not use and the generator register, untouched.
-/
import proofs.«110360_j33578054320687_1_alg».proof.Proof.Gen.Kernel.Launch
import proofs.«110360_j33578054320687_1_alg».proof.Proof.Gen.Kernel.Skeleton
import proofs.«110360_j33578054320687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev rq : Rect S64x128x32 := Rect.unit (s := S64x128x32) ![0, 0, 0] S64x128x32.size inb_S64x128x32_S64x128x32_0_0_0
abbrev rs : Rect S64x128 := Rect.unit (s := S64x128) ![0, 0] S64x128.size inb_S64x128_S64x128_0_0
abbrev ra : Rect S16x4096 := Rect.unit (s := S16x4096) ![0, 0] S16x4096.size inb_S16x4096_S16x4096_0_0
abbrev rb : Rect S64x16 := Rect.unit (s := S64x16) ![0, 0] S64x16.size inb_S64x16_S64x16_0_0
abbrev rw0 : Rect S64x4096 := Rect.unit (s := S64x4096) ![0, 0] S64x4096.size inb_S64x4096_S64x4096_0_0

/-! ## What the body leaves in the output window's buffer -/

/-- The weight block's staging buffer after the body, from the four input blocks (codes, scales, the factor with 16
    rows, the factor with 16 columns): its one store, of the kernel's arithmetic over the four loads. -/
def wout (xq : Vec F S64x128x32 .i32) (xs : Vec F S64x128 .f32) (xa : Vec F S16x4096 .f32) (xb : Vec F S64x16 .f32) : Vec F S64x4096 .bf16 :=
  View.canon [⟨rw0, k0_pay1 (View.ld xq rq) (View.ld xs rs) (View.ld xb rb) (View.ld xa ra)⟩]

/-- The one store covers the buffer. -/
theorem wcover (p0 : Vec F S64x4096 .bf16) (y : S64x4096.Idx) :
    ∃ pc ∈ ([⟨rw0, p0⟩] : List (View.Piece (Elt F) S64x4096 .bf16)), y ∈ pc.1.set :=
  View.cover_of_tiled [⟨rw0, p0⟩] S64x4096.size (by rfl) y

/-! ## The body's triple -/

set_option maxHeartbeats 1000000 in
/-- The kernel body on whole staging memrefs, the inputs' at contents `xq xs xa xb` and the output's at anything, runs
    to the continuation holding the inputs' as they were and the output's at `wout` of them. -/
theorem sound_kernel0 (c : Dev nD) (E : Set ℕ) (i : grid0.Coords)
    (arg2 : Memref sig .tc .vmem S64x128x32 .i32) (harg2 : arg2.IsWhole) (arg3 : Memref sig .tc .vmem S64x128 .f32) (harg3 : arg3.IsWhole)
    (arg4 : Memref sig .tc .vmem S16x4096 .f32) (harg4 : arg4.IsWhole) (arg5 : Memref sig .tc .vmem S64x16 .f32) (harg5 : arg5.IsWhole)
    (arg6 : Memref sig .tc .vmem S64x4096 .bf16) (harg6 : arg6.IsWhole)
    (xq : Vec F S64x128x32 .i32) (xs : Vec F S64x128 .f32) (xa : Vec F S16x4096 .f32) (xb : Vec F S64x16 .f32) (K : PUnit → sProp 𝕄) :
    iprop(owns (c : Thread nD τ) arg2 fullShare xq ∗ owns (c : Thread nD τ) arg3 fullShare xs ∗ owns (c : Thread nD τ) arg4 fullShare xa
        ∗ owns (c : Thread nD τ) arg5 fullShare xb ∗ (∃ d, owns (c : Thread nD τ) arg6 fullShare d)
        ∗ (iprop(owns (c : Thread nD τ) arg2 fullShare xq ∗ owns (c : Thread nD τ) arg3 fullShare xs ∗ owns (c : Thread nD τ) arg4 fullShare xa
            ∗ owns (c : Thread nD τ) arg5 fullShare xb ∗ owns (c : Thread nD τ) arg6 fullShare (wout xq xs xa xb)) -∗ K ⟨⟩))
      ⊢ wp frame (wpE (defs₀ (F := F)) Variants.none c none) E (cc0__dequant_kernel i arg2 harg2 arg3 harg3 arg4 harg4 arg5 harg5 arg6 harg6) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (wcover _)

/-! ## The region's proof data -/

/-- The proof data of the region on core `c`: the arrays as the region finds them; after the body at point `t` each
    input's buffer at its block and the output's at `wout` of the input blocks; the invariant the scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => wout (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = wout (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The matrix kernel's region (the second of the two), at any contents `V` of the core's buffers when the region is
  entered. Its grid has 2 × 8 × 4 points, the last axis running over four blocks of 2048 columns. At a point it is handed
  a 512 × 2048 block of the activations, a 1024 × 2048 block of the weight and a row of 1024 biases. It keeps a
  512 × 1024 accumulator in a scratch buffer across the four points of a run: at the first it resets it to zero, at
  every point it adds the block's product to it, and at the last it stores the accumulator plus the bias row into the
  output's buffer, which is written back there and nowhere else; at the other three points the output's buffer is left
  as found.
-/
import proofs.«110360_j33578054320687_1_alg».proof.Proof.Gen.Kernel.Launch
import proofs.«110360_j33578054320687_1_alg».proof.Proof.Gen.Kernel.Skeleton
import proofs.«110360_j33578054320687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer read or written whole -/

abbrev rx : Rect S512x2048 := Rect.unit (s := S512x2048) ![0, 0] S512x2048.size inb_S512x2048_S512x2048_0_0
abbrev rwt : Rect S1024x2048 := Rect.unit (s := S1024x2048) ![0, 0] S1024x2048.size inb_S1024x2048_S1024x2048_0_0
abbrev rbias : Rect S1x1024 := Rect.unit (s := S1x1024) ![0, 0] S1x1024.size inb_S1x1024_S1x1024_0_0
abbrev racc : Rect S512x1024 := Rect.unit (s := S512x1024) ![0, 0] S512x1024.size inb_S512x1024_S512x1024_0_0

/-- The offset of every access is the origin. -/
theorem hz2 : (![0, 0] : Fin 2 → Nat) = fun _ => 0 := by
  funext a; fin_cases a <;> rfl

/-- A store of the whole accumulator-shaped buffer covers it. -/
theorem acover (L : List (View.Piece (Elt F) S512x1024 .f32)) (p0 : Vec F S512x1024 .f32) (y : S512x1024.Idx) :
    ∃ pc ∈ ((⟨racc, p0⟩ : View.Piece (Elt F) S512x1024 .f32) :: L), y ∈ pc.1.set :=
  ⟨_, List.mem_cons_self, View.mem_set_unit_zero hz2 inb_S512x1024_S512x1024_0_0 y⟩

/-! ## The body's two conditions -/

/-- The first of a run's four points: the last grid coordinate is 0. -/
abbrev isFirst (i : grid1.Coords) : Prop :=
  (Scalar.cmpi .ne (Scalar.extui (Scalar.cmpi .eq (BitVec.ofNat 32 (i 2).val) 0#32)) 0#32) = 1#1
/-- The last: the coordinate is 3. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-! ## The body's triple, case by case -/

set_option maxHeartbeats 1000000 in
/-- A FIRST point of a run: the accumulator, found at anything, is reset to zero and left at the step's value over zero;
    the output's buffer, found at `xo`, is handed back untouched. -/
theorem sound_kernel1_first (c : Dev nD) (E : Set ℕ) (i : grid1.Coords) (hf : isFirst i) (hl : ¬isLast i)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x2048 .f32) (x1 : Vec F S1024x2048 .bf16) (x2 : Vec F S1x1024 .f32) (xo : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2; subst hfo
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  refine (View.read_writes_eq_canon _ _ _ (acover _ _)).trans ?_
  sl_unfold_words
  rw [View.canon_cons_unit_zero (S := S512x1024) hz2]
  simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]

set_option maxHeartbeats 1000000 in
/-- A MIDDLE point (neither first nor last): the accumulator, found at `xs`, is left at the step's value; the output's
    buffer, found at `xo`, is handed back untouched. -/
theorem sound_kernel1_mid (c : Dev nD) (E : Set ℕ) (i : grid1.Coords) (hf : ¬isFirst i) (hl : ¬isLast i)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x2048 .f32) (x1 : Vec F S1024x2048 .bf16) (x2 : Vec F S1x1024 .f32) (xo xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  refine (View.read_writes_eq_canon _ _ _ (acover _ _)).trans ?_
  sl_unfold_words
  rw [View.canon_unit_zero (S := S512x1024) hz2]
  simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]

set_option maxHeartbeats 1000000 in
/-- A LAST point of a run: the accumulator, found at `xs`, is left at the step's value, and the output's buffer, found
    at anything, at that value plus the bias row. -/
theorem sound_kernel1_last (c : Dev nD) (E : Set ℕ) (i : grid1.Coords) (hf : ¬isFirst i) (hl : isLast i)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x2048 .f32) (x1 : Vec F S1024x2048 .bf16) (x2 : Vec F S1x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%dq, %fo, -, HO⟩, ⟨%fs, %hfs, HS⟩, Hk⟩
  subst hf0; subst hf1; subst hf2; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    refine (View.read_writes_eq_canon _ _ _ (acover _ _)).trans ?_
    sl_unfold_words
    rw [View.canon_unit_zero (S := S512x1024) hz2]
    simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]
  iexists _; isplitr
  swap; · iexact HS
  ipureintro
  refine (View.read_writes_eq_canon _ _ _ (acover _ _)).trans ?_
  sl_unfold_words
  rw [View.canon_unit_zero (S := S512x1024) hz2]
  simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]

/-! ## The windows' blocks, and what the accumulator holds after each point -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The accumulator after the body at position `n`: at the first point of a run of four the step's value over the reset
    zero, at the others the step's value over what the point before left. -/
def acc (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc c n (Nat.lt_of_succ_lt hn))

theorem acc_first (c : Dev nD) (t : Fin cfg1.N) (h : t.val % 4 = 0) :
    acc V c t.val t.isLt = k1_pay2 (iblk1 V c 0 t) (iblk1 V c 1 t) (k1_pay1 (F := F)) := by
  obtain ⟨n, hn⟩ := t
  cases n with
  | zero => rfl
  | succ n => exact if_pos h

theorem acc_next (c : Dev nD) (t : Fin cfg1.N) (h : ¬t.val % 4 = 0) :
    acc V c t.val t.isLt = k1_pay2 (iblk1 V c 0 t) (iblk1 V c 1 t) (acc V c (t.val - 1) (Nat.lt_of_le_of_lt (Nat.sub_le _ _) t.isLt)) := by
  obtain ⟨n, hn⟩ := t
  cases n with
  | zero => exact absurd rfl h
  | succ n => exact if_neg h

/-! ## The region's invariant: the scratch accumulator carried between points -/

/-- The accumulator's scratch buffer, whole. -/
abbrev scM : Memref sig .tc .vmem S512x1024 .f32 := Memref.whole cc1_scratch0

/-- A scoped buffer of the core, whole at some contents. -/
abbrev sb (c : Dev nD) (b : Ref sig .tc) : sProp 𝕄 :=
  iprop(∃ f : Buf (Elt F) ((c : Thread nD τ).loc b), ((c : Thread nD τ).loc b) ↦{fullShare} f)

/-- The scoped buffers the region does not stage — the other region's ten staging buffers, each at some contents, and
    the scratch as `S` holds it — beside the generator register at some state. -/
def scopedWith (c : Dev nD) (S : sProp 𝕄) : sProp 𝕄 :=
  iprop((sb c cc0_stg0_0 ∗ sb c cc0_stg0_1 ∗ sb c cc0_stg1_0 ∗ sb c cc0_stg1_1 ∗ sb c cc0_stg2_0 ∗ sb c cc0_stg2_1 ∗ sb c cc0_stg3_0 ∗ sb c cc0_stg3_1 ∗ sb c cc0_stg4_0 ∗ sb c cc0_stg4_1 ∗ S) ∗ (∃ r, prngReg c r))

/-- What of it is not the scratch. -/
def scopedOthers (c : Dev nD) : sProp 𝕄 :=
  iprop((sb c cc0_stg0_0 ∗ sb c cc0_stg0_1 ∗ sb c cc0_stg1_0 ∗ sb c cc0_stg1_1 ∗ sb c cc0_stg2_0 ∗ sb c cc0_stg2_1 ∗ sb c cc0_stg3_0 ∗ sb c cc0_stg3_1 ∗ sb c cc0_stg4_0 ∗ sb c cc0_stg4_1) ∗ (∃ r, prngReg c r))

theorem scopedWith_out (c : Dev nD) (S : sProp 𝕄) : scopedWith (F := F) c S ⊢ iprop(S ∗ scopedOthers (F := F) c) := by
  unfold scopedWith scopedOthers
  iintro ⟨⟨B0, B1, B2, B3, B4, B5, B6, B7, B8, B9, HS⟩, Hp⟩
  isplitl [HS]; · iexact HS
  isplitr [Hp]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  iexact Hp

theorem scopedWith_in (c : Dev nD) (S : sProp 𝕄) : iprop(S ∗ scopedOthers (F := F) c) ⊢ scopedWith (F := F) c S := by
  unfold scopedWith scopedOthers
  iintro ⟨HS, ⟨B0, B1, B2, B3, B4, B5, B6, B7, B8, B9⟩, Hp⟩
  isplitr [Hp]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HS
  iexact Hp

/-- The class's invariant (every scoped buffer the region does not stage at anything, the generator register) with
    the scratch as a memref owned at some contents. -/
theorem PhiA1_eq (c : Dev nD) :
    (Pipeline.ΦA spec1 c : sProp 𝕄) = scopedWith (F := F) c (iprop(∃ d, owns (c : Thread nD τ) scM fullShare d)) := by
  unfold Pipeline.ΦA scopedWith; rw [scopedRest1_eq]; simp only [scM, owns_whole]; try rfl

/-- The region invariant before position `n`: before the first point the class's; afterwards the same with the scratch
    at what the point before left in it. -/
def PhiS (c : Dev nD) : (n : ℕ) → n ≤ cfg1.N → sProp 𝕄
  | 0, _ => Pipeline.ΦA spec1 c
  | n + 1, hn => scopedWith (F := F) c (owns (c : Thread nD τ) scM fullShare (acc V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = scopedWith (F := F) c (owns (c : Thread nD τ) scM fullShare (acc V c n hn)) := rfl
theorem PhiS_pos (c : Dev nD) (n : ℕ) (h : n ≤ cfg1.N) (hz : n ≠ 0) :
    PhiS V c n h = scopedWith (F := F) c (owns (c : Thread nD τ) scM fullShare (acc V c (n - 1) (by omega))) := by
  cases n with
  | zero => exact absurd rfl hz
  | succ n => rfl

/-! ## The region's proof data -/

/-- The proof data of the region on core `c`: the arrays as the region finds them; after the body at point `t` each
    input's buffer at its block and the output's at the accumulator there plus the bias row (read only where the block
    is written back: at the last point of each run); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
/-- Away from the last point of a run the output's buffer is not stored into and not written back; -/
theorem idle1_3 : ∀ t : Fin cfg1.N, ¬isLast (grid1.coords t) → cfg1.idle 3 (grid1.coords t) = true := by decide +kernel
theorem noFlush1_3 : ∀ t : Fin cfg1.N, ¬isLast (grid1.coords t) → (cfg1.win 3).flush t = false := by decide +kernel
/-- at the last it is stored. -/
theorem live1_3 : ∀ t : Fin cfg1.N, isLast (grid1.coords t) → cfg1.idle 3 (grid1.coords t) = false := by decide +kernel

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the point's position in its run of four says which
    case it is; the invariant hands the body the scratch at what the point before left (at anything at the very first
    point) and takes it back at this point's accumulator; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  by_cases h0 : t.val % 4 = 0
  · have hF : isFirst (grid1.coords t) := (isFirst_iff t).mpr h0
    have hL : ¬isLast (grid1.coords t) := fun h => by have := (isLast_iff t).mp h; omega
    rw [Dat.leavesExact_idle (dat1 V c) 3 t (idle1_3 t hL) (noFlush1_3 t hL), acc_first V c t h0]
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_first c Set.univ _ hF hL _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_first c Set.univ _ hF hL _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexists _; iexact H3
  · have hF : ¬isFirst (grid1.coords t) := fun h => h0 ((isFirst_iff t).mp h)
    have hz : t.val ≠ 0 := fun h => h0 (by rw [h])
    rw [PhiS_castSucc V c t, PhiS_pos V c _ _ hz, acc_next V c t h0]
    by_cases h3 : t.val % 4 = 3
    · have hL : isLast (grid1.coords t) := (isLast_iff t).mpr h3
      rw [show (dat1 V c).leavesExact 3 t = owns (c : Thread nD τ) (st1_3 t) fullShare ((dat1 V c).after 3 t) from by
        unfold Dat.leavesExact; rw [live1_3 t hL], after1_3, acc_next V c t h0]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_last c Set.univ _ hF hL _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexact H3
    · have hL : ¬isLast (grid1.coords t) := fun h => h3 ((isLast_iff t).mp h)
      rw [Dat.leavesExact_idle (dat1 V c) 3 t (idle1_3 t hL) (noFlush1_3 t hL)]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_mid c Set.univ _ hF hL _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hN, PhiA1_eq]
  iintro H
  ihave H' := (scopedWith_out (F := F) c _) $$ H
  icases H' with ⟨HS, Hrest⟩
  iapply (scopedWith_in (F := F) c _)
  isplitl [HS]; · iexists _; iexact HS
  iexact Hrest

end Cert.Kernel.Hand

end
-- ==== Proof.K.Fold.lean ====
/-
  The contents of a core's buffers at each boundary of the program: at launch; after the dequantising region, whose
  weight array then holds what its write-backs leave; after the two reshapes that lay the activations out as 1024 rows
  and the bias as one row; after the matrix region, whose result array holds what its write-backs leave; and after the
  final reshape to 4 × 256 rows. Every argument array reads back through this fold to its launch contents.
-/
import proofs.«110360_j33578054320687_1_alg».proof.Proof.K.Body0
import proofs.«110360_j33578054320687_1_alg».proof.Proof.K.Body1
import proofs.«110360_j33578054320687_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch: what the first region is entered with (no host operation comes before it). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- At the dequantising region's exit: its arrays at what the pipeline leaves (the inputs as entered, the weight array
    with each point's block written back), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes: what the matrix region is entered with. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- At the matrix region's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the final reshape: what the program ends with. -/
abbrev W4 : Dev nD → Valuation τ sig (Elt F) := fun c => StableHlo.after hostOps2 (W3 m c)

/-! ## The arguments end as launched -/

/-- `main_arg0` reads back through the fold to its launch contents: no host operation writes it, and a region either stages
    it as an input or does not touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl
/-- `main_arg1` reads back through the fold to its launch contents: no host operation writes it, and a region either stages
    it as an input or does not touch it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (V0 m) c).arrAt_in 0 rfl _).trans (A_eq0 (V0 m) c 0))
    _ = m ((c : Thread nD τ).loc main_arg1) := rfl
/-- `main_arg2` reads back through the fold to its launch contents: no host operation writes it, and a region either stages
    it as an input or does not touch it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (V0 m) c).arrAt_in 1 rfl _).trans (A_eq0 (V0 m) c 1))
    _ = m ((c : Thread nD τ).loc main_arg2) := rfl
/-- `main_arg3` reads back through the fold to its launch contents: no host operation writes it, and a region either stages
    it as an input or does not touch it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := StableHlo.after_of_writes_sub hostOps1 _ hostOps1_writes (r := main_arg3) (by decide)
    _ = W0 m c (Proc.devRef .tc main_arg3) := (W1_arr m c 2).trans (((dat0 (V0 m) c).arrAt_in 2 rfl _).trans (A_eq0 (V0 m) c 2))
    _ = m ((c : Thread nD τ).loc main_arg3) := rfl
/-- `main_arg4` reads back through the fold to its launch contents: no host operation writes it, and a region either stages
    it as an input or does not touch it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := StableHlo.after_of_writes_sub hostOps1 _ hostOps1_writes (r := main_arg4) (by decide)
    _ = W0 m c (Proc.devRef .tc main_arg4) := (W1_arr m c 3).trans (((dat0 (V0 m) c).arrAt_in 3 rfl _).trans (A_eq0 (V0 m) c 3))
    _ = m ((c : Thread nD τ).loc main_arg4) := rfl
/-- `main_arg5` reads back through the fold to its launch contents: no host operation writes it, and a region either stages
    it as an input or does not touch it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := StableHlo.after_of_writes_sub hostOps1 _ hostOps1_writes (r := main_arg5) (by decide)
    _ = W0 m c (Proc.devRef .tc main_arg5) := W1_of_ne m c main_arg5 (by decide)
    _ = m ((c : Thread nD τ).loc main_arg5) := rfl

end Cert.Kernel.Hand

end
-- ==== Proof.K.Run.lean ====
/-
  The program's run, from the launch to the return: the dequantising region, the two reshapes, the matrix region, the
  final reshape, each entered from the buffer contents the one before leaves. Each region is given to the launch theorem
  as its layout, its body obligation and four entailments around the thread state "every unscoped buffer at the
  boundary's contents, the generator register at some state, nothing owed": its arrays are split out of the unscoped
  buffers at entry and put back at what the write-backs leave at exit; the matrix region's invariant takes the scoped
  buffers at entry and forgets its accumulator's contents at exit. The run ends with every unscoped buffer of every core
  at the last boundary's contents: the arguments as launched, the result at what the fold says.
-/
import proofs.«110360_j33578054320687_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues,
    at nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = (dat1 (V2 m) c).Φ (Fin.last cfg1.N) from rfl]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show (iprop(StableHlo.held (c : Thread nD τ) (Pipeline.ucRefs τ sig) (W4 m c) ∗ R c) : sProp 𝕄)
        ⊢ iprop(Tₙ m c ∗ ∃ W, owes (c.tc : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The frame, and the result -/

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v4 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.Kernel.Hand

end
-- ==== Proof.KI.Body0.lean ====
/-
  The dequantising kernel's region (the first of the two), at any contents `V` of the core's buffers when the region
  is entered. Its grid has 128 × 2 points; at a point it is handed one block of the codes, of the scales and of each
  low-rank factor, and it stores one 64 × 4096 block of the weight, whole. So what the body leaves in the output's
  staging buffer is one function of the four input blocks, each input's buffer holds its block at every point (fetched
  there or, the block index not having moved, left from the point before), nothing is carried between points, and the
  region's invariant is the scoped buffers it does not use and the generator register, untouched.
-/
import proofs.«110360_j33578054320687_1_alg».proof.Proof.Gen.KernelIdeal.Launch
import proofs.«110360_j33578054320687_1_alg».proof.Proof.Gen.KernelIdeal.Skeleton
import proofs.«110360_j33578054320687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev rq : Rect S64x128x32 := Rect.unit (s := S64x128x32) ![0, 0, 0] S64x128x32.size inb_S64x128x32_S64x128x32_0_0_0
abbrev rs : Rect S64x128 := Rect.unit (s := S64x128) ![0, 0] S64x128.size inb_S64x128_S64x128_0_0
abbrev ra : Rect S16x4096 := Rect.unit (s := S16x4096) ![0, 0] S16x4096.size inb_S16x4096_S16x4096_0_0
abbrev rb : Rect S64x16 := Rect.unit (s := S64x16) ![0, 0] S64x16.size inb_S64x16_S64x16_0_0
abbrev rw0 : Rect S64x4096 := Rect.unit (s := S64x4096) ![0, 0] S64x4096.size inb_S64x4096_S64x4096_0_0

/-! ## What the body leaves in the output window's buffer -/

/-- The weight block's staging buffer after the body, from the four input blocks (codes, scales, the factor with 16
    rows, the factor with 16 columns): its one store, of the kernel's arithmetic over the four loads. -/
def wout (xq : Vec F S64x128x32 .i32) (xs : Vec F S64x128 .f32) (xa : Vec F S16x4096 .f32) (xb : Vec F S64x16 .f32) : Vec F S64x4096 .bf16 :=
  View.canon [⟨rw0, k0_pay1 (View.ld xq rq) (View.ld xs rs) (View.ld xb rb) (View.ld xa ra)⟩]

/-- The one store covers the buffer. -/
theorem wcover (p0 : Vec F S64x4096 .bf16) (y : S64x4096.Idx) :
    ∃ pc ∈ ([⟨rw0, p0⟩] : List (View.Piece (Elt F) S64x4096 .bf16)), y ∈ pc.1.set :=
  View.cover_of_tiled [⟨rw0, p0⟩] S64x4096.size (by rfl) y

/-! ## The body's triple -/

set_option maxHeartbeats 1000000 in
/-- The kernel body on whole staging memrefs, the inputs' at contents `xq xs xa xb` and the output's at anything, runs
    to the continuation holding the inputs' as they were and the output's at `wout` of them. -/
theorem sound_kernel0 (c : Dev nD) (E : Set ℕ) (i : grid0.Coords)
    (arg2 : Memref sig .tc .vmem S64x128x32 .i32) (harg2 : arg2.IsWhole) (arg3 : Memref sig .tc .vmem S64x128 .f32) (harg3 : arg3.IsWhole)
    (arg4 : Memref sig .tc .vmem S16x4096 .f32) (harg4 : arg4.IsWhole) (arg5 : Memref sig .tc .vmem S64x16 .f32) (harg5 : arg5.IsWhole)
    (arg6 : Memref sig .tc .vmem S64x4096 .bf16) (harg6 : arg6.IsWhole)
    (xq : Vec F S64x128x32 .i32) (xs : Vec F S64x128 .f32) (xa : Vec F S16x4096 .f32) (xb : Vec F S64x16 .f32) (K : PUnit → sProp 𝕄) :
    iprop(owns (c : Thread nD τ) arg2 fullShare xq ∗ owns (c : Thread nD τ) arg3 fullShare xs ∗ owns (c : Thread nD τ) arg4 fullShare xa
        ∗ owns (c : Thread nD τ) arg5 fullShare xb ∗ (∃ d, owns (c : Thread nD τ) arg6 fullShare d)
        ∗ (iprop(owns (c : Thread nD τ) arg2 fullShare xq ∗ owns (c : Thread nD τ) arg3 fullShare xs ∗ owns (c : Thread nD τ) arg4 fullShare xa
            ∗ owns (c : Thread nD τ) arg5 fullShare xb ∗ owns (c : Thread nD τ) arg6 fullShare (wout xq xs xa xb)) -∗ K ⟨⟩))
      ⊢ wp frame (wpE (defs₀ (F := F)) Variants.none c none) E (cc0__dequant_kernel i arg2 harg2 arg3 harg3 arg4 harg4 arg5 harg5 arg6 harg6) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (wcover _)

/-! ## The region's proof data -/

/-- The proof data of the region on core `c`: the arrays as the region finds them; after the body at point `t` each
    input's buffer at its block and the output's at `wout` of the input blocks; the invariant the scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => wout (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = wout (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The matrix kernel's region (the second of the two), at any contents `V` of the core's buffers when the region is
  entered. Its grid has 2 × 8 × 4 points, the last axis running over four blocks of 2048 columns. At a point it is handed
  a 512 × 2048 block of the activations, a 1024 × 2048 block of the weight and a row of 1024 biases. It keeps a
  512 × 1024 accumulator in a scratch buffer across the four points of a run: at the first it resets it to zero, at
  every point it adds the block's product to it, and at the last it stores the accumulator plus the bias row into the
  output's buffer, which is written back there and nowhere else; at the other three points the output's buffer is left
  as found.
-/
import proofs.«110360_j33578054320687_1_alg».proof.Proof.Gen.KernelIdeal.Launch
import proofs.«110360_j33578054320687_1_alg».proof.Proof.Gen.KernelIdeal.Skeleton
import proofs.«110360_j33578054320687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer read or written whole -/

abbrev rx : Rect S512x2048 := Rect.unit (s := S512x2048) ![0, 0] S512x2048.size inb_S512x2048_S512x2048_0_0
abbrev rwt : Rect S1024x2048 := Rect.unit (s := S1024x2048) ![0, 0] S1024x2048.size inb_S1024x2048_S1024x2048_0_0
abbrev rbias : Rect S1x1024 := Rect.unit (s := S1x1024) ![0, 0] S1x1024.size inb_S1x1024_S1x1024_0_0
abbrev racc : Rect S512x1024 := Rect.unit (s := S512x1024) ![0, 0] S512x1024.size inb_S512x1024_S512x1024_0_0

/-- The offset of every access is the origin. -/
theorem hz2 : (![0, 0] : Fin 2 → Nat) = fun _ => 0 := by
  funext a; fin_cases a <;> rfl

/-- A store of the whole accumulator-shaped buffer covers it. -/
theorem acover (L : List (View.Piece (Elt F) S512x1024 .f32)) (p0 : Vec F S512x1024 .f32) (y : S512x1024.Idx) :
    ∃ pc ∈ ((⟨racc, p0⟩ : View.Piece (Elt F) S512x1024 .f32) :: L), y ∈ pc.1.set :=
  ⟨_, List.mem_cons_self, View.mem_set_unit_zero hz2 inb_S512x1024_S512x1024_0_0 y⟩

/-! ## The body's two conditions -/

/-- The first of a run's four points: the last grid coordinate is 0. -/
abbrev isFirst (i : grid1.Coords) : Prop :=
  (Scalar.cmpi .ne (Scalar.extui (Scalar.cmpi .eq (BitVec.ofNat 32 (i 2).val) 0#32)) 0#32) = 1#1
/-- The last: the coordinate is 3. -/
abbrev isLast (i : grid1.Coords) : Prop := k1_cond2 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-! ## The body's triple, case by case -/

set_option maxHeartbeats 1000000 in
/-- A FIRST point of a run: the accumulator, found at anything, is reset to zero and left at the step's value over zero;
    the output's buffer, found at `xo`, is handed back untouched. -/
theorem sound_kernel1_first (c : Dev nD) (E : Set ℕ) (i : grid1.Coords) (hf : isFirst i) (hl : ¬isLast i)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x2048 .f32) (x1 : Vec F S1024x2048 .bf16) (x2 : Vec F S1x1024 .f32) (xo : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2; subst hfo
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  refine (View.read_writes_eq_canon _ _ _ (acover _ _)).trans ?_
  sl_unfold_words
  rw [View.canon_cons_unit_zero (S := S512x1024) hz2]
  simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]

set_option maxHeartbeats 1000000 in
/-- A MIDDLE point (neither first nor last): the accumulator, found at `xs`, is left at the step's value; the output's
    buffer, found at `xo`, is handed back untouched. -/
theorem sound_kernel1_mid (c : Dev nD) (E : Set ℕ) (i : grid1.Coords) (hf : ¬isFirst i) (hl : ¬isLast i)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x2048 .f32) (x1 : Vec F S1024x2048 .bf16) (x2 : Vec F S1x1024 .f32) (xo xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  refine (View.read_writes_eq_canon _ _ _ (acover _ _)).trans ?_
  sl_unfold_words
  rw [View.canon_unit_zero (S := S512x1024) hz2]
  simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]

set_option maxHeartbeats 1000000 in
/-- A LAST point of a run: the accumulator, found at `xs`, is left at the step's value, and the output's buffer, found
    at anything, at that value plus the bias row. -/
theorem sound_kernel1_last (c : Dev nD) (E : Set ℕ) (i : grid1.Coords) (hf : ¬isFirst i) (hl : isLast i)
    (arg3 : Memref sig .tc .vmem S512x2048 .f32) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x2048 .f32) (x1 : Vec F S1024x2048 .bf16) (x2 : Vec F S1x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%dq, %fo, -, HO⟩, ⟨%fs, %hfs, HS⟩, Hk⟩
  subst hf0; subst hf1; subst hf2; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    refine (View.read_writes_eq_canon _ _ _ (acover _ _)).trans ?_
    sl_unfold_words
    rw [View.canon_unit_zero (S := S512x1024) hz2]
    simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]
  iexists _; isplitr
  swap; · iexact HS
  ipureintro
  refine (View.read_writes_eq_canon _ _ _ (acover _ _)).trans ?_
  sl_unfold_words
  rw [View.canon_unit_zero (S := S512x1024) hz2]
  simp only [View.readAt_eq_ld, View.ld_unit_zero (S := S512x2048) hz2, View.ld_unit_zero (S := S1024x2048) hz2,
    View.ld_unit_zero (S := S1x1024) hz2, View.ld_unit_zero (S := S512x1024) hz2, View.readCov_unit_zero (S := S512x1024) _ hz2]

/-! ## The windows' blocks, and what the accumulator holds after each point -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The accumulator after the body at position `n`: at the first point of a run of four the step's value over the reset
    zero, at the others the step's value over what the point before left. -/
def acc (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc c n (Nat.lt_of_succ_lt hn))

theorem acc_first (c : Dev nD) (t : Fin cfg1.N) (h : t.val % 4 = 0) :
    acc V c t.val t.isLt = k1_pay2 (iblk1 V c 0 t) (iblk1 V c 1 t) (k1_pay1 (F := F)) := by
  obtain ⟨n, hn⟩ := t
  cases n with
  | zero => rfl
  | succ n => exact if_pos h

theorem acc_next (c : Dev nD) (t : Fin cfg1.N) (h : ¬t.val % 4 = 0) :
    acc V c t.val t.isLt = k1_pay2 (iblk1 V c 0 t) (iblk1 V c 1 t) (acc V c (t.val - 1) (Nat.lt_of_le_of_lt (Nat.sub_le _ _) t.isLt)) := by
  obtain ⟨n, hn⟩ := t
  cases n with
  | zero => exact absurd rfl h
  | succ n => exact if_neg h

/-! ## The region's invariant: the scratch accumulator carried between points -/

/-- The accumulator's scratch buffer, whole. -/
abbrev scM : Memref sig .tc .vmem S512x1024 .f32 := Memref.whole cc1_scratch0

/-- A scoped buffer of the core, whole at some contents. -/
abbrev sb (c : Dev nD) (b : Ref sig .tc) : sProp 𝕄 :=
  iprop(∃ f : Buf (Elt F) ((c : Thread nD τ).loc b), ((c : Thread nD τ).loc b) ↦{fullShare} f)

/-- The scoped buffers the region does not stage — the other region's ten staging buffers, each at some contents, and
    the scratch as `S` holds it — beside the generator register at some state. -/
def scopedWith (c : Dev nD) (S : sProp 𝕄) : sProp 𝕄 :=
  iprop((sb c cc0_stg0_0 ∗ sb c cc0_stg0_1 ∗ sb c cc0_stg1_0 ∗ sb c cc0_stg1_1 ∗ sb c cc0_stg2_0 ∗ sb c cc0_stg2_1 ∗ sb c cc0_stg3_0 ∗ sb c cc0_stg3_1 ∗ sb c cc0_stg4_0 ∗ sb c cc0_stg4_1 ∗ S) ∗ (∃ r, prngReg c r))

/-- What of it is not the scratch. -/
def scopedOthers (c : Dev nD) : sProp 𝕄 :=
  iprop((sb c cc0_stg0_0 ∗ sb c cc0_stg0_1 ∗ sb c cc0_stg1_0 ∗ sb c cc0_stg1_1 ∗ sb c cc0_stg2_0 ∗ sb c cc0_stg2_1 ∗ sb c cc0_stg3_0 ∗ sb c cc0_stg3_1 ∗ sb c cc0_stg4_0 ∗ sb c cc0_stg4_1) ∗ (∃ r, prngReg c r))

theorem scopedWith_out (c : Dev nD) (S : sProp 𝕄) : scopedWith (F := F) c S ⊢ iprop(S ∗ scopedOthers (F := F) c) := by
  unfold scopedWith scopedOthers
  iintro ⟨⟨B0, B1, B2, B3, B4, B5, B6, B7, B8, B9, HS⟩, Hp⟩
  isplitl [HS]; · iexact HS
  isplitr [Hp]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  iexact Hp

theorem scopedWith_in (c : Dev nD) (S : sProp 𝕄) : iprop(S ∗ scopedOthers (F := F) c) ⊢ scopedWith (F := F) c S := by
  unfold scopedWith scopedOthers
  iintro ⟨HS, ⟨B0, B1, B2, B3, B4, B5, B6, B7, B8, B9⟩, Hp⟩
  isplitr [Hp]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HS
  iexact Hp

/-- The class's invariant (every scoped buffer the region does not stage at anything, the generator register) with
    the scratch as a memref owned at some contents. -/
theorem PhiA1_eq (c : Dev nD) :
    (Pipeline.ΦA spec1 c : sProp 𝕄) = scopedWith (F := F) c (iprop(∃ d, owns (c : Thread nD τ) scM fullShare d)) := by
  unfold Pipeline.ΦA scopedWith; rw [scopedRest1_eq]; simp only [scM, owns_whole]; try rfl

/-- The region invariant before position `n`: before the first point the class's; afterwards the same with the scratch
    at what the point before left in it. -/
def PhiS (c : Dev nD) : (n : ℕ) → n ≤ cfg1.N → sProp 𝕄
  | 0, _ => Pipeline.ΦA spec1 c
  | n + 1, hn => scopedWith (F := F) c (owns (c : Thread nD τ) scM fullShare (acc V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = scopedWith (F := F) c (owns (c : Thread nD τ) scM fullShare (acc V c n hn)) := rfl
theorem PhiS_pos (c : Dev nD) (n : ℕ) (h : n ≤ cfg1.N) (hz : n ≠ 0) :
    PhiS V c n h = scopedWith (F := F) c (owns (c : Thread nD τ) scM fullShare (acc V c (n - 1) (by omega))) := by
  cases n with
  | zero => exact absurd rfl hz
  | succ n => rfl

/-! ## The region's proof data -/

/-- The proof data of the region on core `c`: the arrays as the region finds them; after the body at point `t` each
    input's buffer at its block and the output's at the accumulator there plus the bias row (read only where the block
    is written back: at the last point of each run); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
/-- Away from the last point of a run the output's buffer is not stored into and not written back; -/
theorem idle1_3 : ∀ t : Fin cfg1.N, ¬isLast (grid1.coords t) → cfg1.idle 3 (grid1.coords t) = true := by decide +kernel
theorem noFlush1_3 : ∀ t : Fin cfg1.N, ¬isLast (grid1.coords t) → (cfg1.win 3).flush t = false := by decide +kernel
/-- at the last it is stored. -/
theorem live1_3 : ∀ t : Fin cfg1.N, isLast (grid1.coords t) → cfg1.idle 3 (grid1.coords t) = false := by decide +kernel

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the point's position in its run of four says which
    case it is; the invariant hands the body the scratch at what the point before left (at anything at the very first
    point) and takes it back at this point's accumulator; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  by_cases h0 : t.val % 4 = 0
  · have hF : isFirst (grid1.coords t) := (isFirst_iff t).mpr h0
    have hL : ¬isLast (grid1.coords t) := fun h => by have := (isLast_iff t).mp h; omega
    rw [Dat.leavesExact_idle (dat1 V c) 3 t (idle1_3 t hL) (noFlush1_3 t hL), acc_first V c t h0]
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_first c Set.univ _ hF hL _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_first c Set.univ _ hF hL _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexists _; iexact H3
  · have hF : ¬isFirst (grid1.coords t) := fun h => h0 ((isFirst_iff t).mp h)
    have hz : t.val ≠ 0 := fun h => h0 (by rw [h])
    rw [PhiS_castSucc V c t, PhiS_pos V c _ _ hz, acc_next V c t h0]
    by_cases h3 : t.val % 4 = 3
    · have hL : isLast (grid1.coords t) := (isLast_iff t).mpr h3
      rw [show (dat1 V c).leavesExact 3 t = owns (c : Thread nD τ) (st1_3 t) fullShare ((dat1 V c).after 3 t) from by
        unfold Dat.leavesExact; rw [live1_3 t hL], after1_3, acc_next V c t h0]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_last c Set.univ _ hF hL _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexact H3
    · have hL : ¬isLast (grid1.coords t) := fun h => h3 ((isLast_iff t).mp h)
      rw [Dat.leavesExact_idle (dat1 V c) 3 t (idle1_3 t hL) (noFlush1_3 t hL)]
      iintro ⟨HΦ, Ho, ⟨%d0, H0⟩, ⟨%d1, H1⟩, ⟨%d2, H2⟩, ⟨%d3, H3⟩⟩
      ihave HΦ' := (scopedWith_out (F := F) c _) $$ HΦ
      icases HΦ' with ⟨HS, Hrest⟩
      iapply (sound_kernel1_mid c Set.univ _ hF hL _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · iapply (scopedWith_in (F := F) c _); isplitl [HS]; · iexact HS
        iexact Hrest
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hN, PhiA1_eq]
  iintro H
  ihave H' := (scopedWith_out (F := F) c _) $$ H
  icases H' with ⟨HS, Hrest⟩
  iapply (scopedWith_in (F := F) c _)
  isplitl [HS]; · iexists _; iexact HS
  iexact Hrest

end Cert.KernelIdeal.Hand

end
-- ==== Proof.KI.Fold.lean ====
/-
  The contents of a core's buffers at each boundary of the program: at launch; after the dequantising region, whose
  weight array then holds what its write-backs leave; after the two reshapes that lay the activations out as 1024 rows
  and the bias as one row; after the matrix region, whose result array holds what its write-backs leave; and after the
  final reshape to 4 × 256 rows. Every argument array reads back through this fold to its launch contents.
-/
import proofs.«110360_j33578054320687_1_alg».proof.Proof.KI.Body0
import proofs.«110360_j33578054320687_1_alg».proof.Proof.KI.Body1
import proofs.«110360_j33578054320687_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch: what the first region is entered with (no host operation comes before it). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- At the dequantising region's exit: its arrays at what the pipeline leaves (the inputs as entered, the weight array
    with each point's block written back), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes: what the matrix region is entered with. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- At the matrix region's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the final reshape: what the program ends with. -/
abbrev W4 : Dev nD → Valuation τ sig (Elt F) := fun c => StableHlo.after hostOps2 (W3 m c)

/-! ## The arguments end as launched -/

/-- `main_arg0` reads back through the fold to its launch contents: no host operation writes it, and a region either stages
    it as an input or does not touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl
/-- `main_arg1` reads back through the fold to its launch contents: no host operation writes it, and a region either stages
    it as an input or does not touch it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (V0 m) c).arrAt_in 0 rfl _).trans (A_eq0 (V0 m) c 0))
    _ = m ((c : Thread nD τ).loc main_arg1) := rfl
/-- `main_arg2` reads back through the fold to its launch contents: no host operation writes it, and a region either stages
    it as an input or does not touch it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (V0 m) c).arrAt_in 1 rfl _).trans (A_eq0 (V0 m) c 1))
    _ = m ((c : Thread nD τ).loc main_arg2) := rfl
/-- `main_arg3` reads back through the fold to its launch contents: no host operation writes it, and a region either stages
    it as an input or does not touch it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := W3_of_ne m c main_arg3 (by decide)
    _ = W1 m c (Proc.devRef .tc main_arg3) := StableHlo.after_of_writes_sub hostOps1 _ hostOps1_writes (r := main_arg3) (by decide)
    _ = W0 m c (Proc.devRef .tc main_arg3) := (W1_arr m c 2).trans (((dat0 (V0 m) c).arrAt_in 2 rfl _).trans (A_eq0 (V0 m) c 2))
    _ = m ((c : Thread nD τ).loc main_arg3) := rfl
/-- `main_arg4` reads back through the fold to its launch contents: no host operation writes it, and a region either stages
    it as an input or does not touch it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := W3_of_ne m c main_arg4 (by decide)
    _ = W1 m c (Proc.devRef .tc main_arg4) := StableHlo.after_of_writes_sub hostOps1 _ hostOps1_writes (r := main_arg4) (by decide)
    _ = W0 m c (Proc.devRef .tc main_arg4) := (W1_arr m c 3).trans (((dat0 (V0 m) c).arrAt_in 3 rfl _).trans (A_eq0 (V0 m) c 3))
    _ = m ((c : Thread nD τ).loc main_arg4) := rfl
/-- `main_arg5` reads back through the fold to its launch contents: no host operation writes it, and a region either stages
    it as an input or does not touch it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := StableHlo.after_of_writes_sub hostOps1 _ hostOps1_writes (r := main_arg5) (by decide)
    _ = W0 m c (Proc.devRef .tc main_arg5) := W1_of_ne m c main_arg5 (by decide)
    _ = m ((c : Thread nD τ).loc main_arg5) := rfl

end Cert.KernelIdeal.Hand

end
-- ==== Proof.KI.Run.lean ====
/-
  The program's run, from the launch to the return: the dequantising region, the two reshapes, the matrix region, the
  final reshape, each entered from the buffer contents the one before leaves. Each region is given to the launch theorem
  as its layout, its body obligation and four entailments around the thread state "every unscoped buffer at the
  boundary's contents, the generator register at some state, nothing owed": its arrays are split out of the unscoped
  buffers at entry and put back at what the write-backs leave at exit; the matrix region's invariant takes the scoped
  buffers at entry and forgets its accumulator's contents at exit. The run ends with every unscoped buffer of every core
  at the last boundary's contents: the arguments as launched, the result at what the fold says.
-/
import proofs.«110360_j33578054320687_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues,
    at nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = (dat1 (V2 m) c).Φ (Fin.last cfg1.N) from rfl]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show (iprop(StableHlo.held (c : Thread nD τ) (Pipeline.ucRefs τ sig) (W4 m c) ∗ R c) : sProp 𝕄)
        ⊢ iprop(Tₙ m c ∗ ∃ W, owes (c.tc : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The frame, and the result -/

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v4 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Hand

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.Spec.lean ====
/-
  The function both programs compute over the extended reals.

  A weight matrix of 8192 rows and 8192 columns is stored block-quantised: column `i` of row `o` lies in group
  `i / 32` at lane `i % 32`, its code an integer word, and each (row, group) has one scale. The weight is the
  code minus 128, times the group's scale, plus twice the rank-16 product of the two low-rank factors. The layer applies
  it to the activations: entry (b, s, o) of the result is the sum over the 8192 columns `i` of the activation at
  (b, s, i) times the weight at (o, i), plus the bias at `o`.

  `blocked` is the same layer on activations laid out as 1024 rows, with the sum taken in four consecutive blocks of 2048
  columns added one after the other onto zero, then the bias: the arrangement a K-blocked accumulation produces.
-/
import Idealize.ShloMosaic.PureOps.Ideal.Laws
import Idealize.ShloMosaic.Lib.ValueIdx

noncomputable section

open scoped BigOperators

namespace QLinear

open Idealize.ShloMosaic Idealize.ShloMosaic.ValueIdx

abbrev Xs : Shape := ⟨3, ![4, 256, 8192]⟩
abbrev Qs : Shape := ⟨3, ![8192, 256, 32]⟩
abbrev Ss : Shape := ⟨2, ![8192, 256]⟩
abbrev As : Shape := ⟨2, ![16, 8192]⟩
abbrev Bs : Shape := ⟨2, ![8192, 16]⟩
abbrev Vs : Shape := ⟨1, ![8192]⟩
abbrev Ws : Shape := ⟨2, ![8192, 8192]⟩
abbrev X2s : Shape := ⟨2, ![1024, 8192]⟩
abbrev V2s : Shape := ⟨2, ![1, 8192]⟩

/-- The quantisation group of a column, -/
def grp (i : Fin 8192) : Fin 256 := ⟨i.val / 32, by have := i.isLt; omega⟩
/-- and its lane inside the group. -/
def lane (i : Fin 8192) : Fin 32 := ⟨i.val % 32, by omega⟩

/-- The zero point 128.0 and the patch scale 2.0, as the programs spell them. -/
abbrev zeroPoint : EReal := Ideal.ofBits .f32 0x43000000#32
abbrev patchScale : EReal := Ideal.ofBits .f32 0x40000000#32

/-- The dequantised, patched weight at row `o`, column `i`. -/
def weightAt (q : Qs.Idx → BitVec 32) (sc : Ss.Idx → EReal) (la : As.Idx → EReal) (lb : Bs.Idx → EReal) (o i : Fin 8192) : EReal :=
  ((((q (ix3 o (grp i) (lane i))).toInt : ℝ) : EReal) - zeroPoint) * sc (ix2 o (grp i))
    + patchScale * ∑ r : Fin 16, lb (ix2 o r) * la (ix2 r i)

/-- The weight as an array. -/
def weight (q : Qs.Idx → BitVec 32) (sc : Ss.Idx → EReal) (la : As.Idx → EReal) (lb : Bs.Idx → EReal) : Ws.Idx → EReal :=
  fun j => weightAt q sc la lb ⟨(j 0).val, (j 0).isLt⟩ ⟨(j 1).val, (j 1).isLt⟩

/-- The layer's result at (b, s, o): one sum over all 8192 columns, then the bias. -/
def outAt (x : Xs.Idx → EReal) (W : Ws.Idx → EReal) (bias : Vs.Idx → EReal) (b : Fin 4) (s : Fin 256) (o : Fin 8192) : EReal :=
  (∑ i : Fin 8192, x (ix3 b s i) * W (ix2 o i)) + bias (ix1 o)

/-- The layer's result as an array. -/
def out (x : Xs.Idx → EReal) (W : Ws.Idx → EReal) (bias : Vs.Idx → EReal) : Xs.Idx → EReal :=
  fun j => outAt x W bias ⟨(j 0).val, (j 0).isLt⟩ ⟨(j 1).val, (j 1).isLt⟩ ⟨(j 2).val, (j 2).isLt⟩

/-- Column `kk` of block `k` of 2048 columns. -/
def col (k : Fin 4) (kk : Fin 2048) : Fin 8192 := ⟨k.val * 2048 + kk.val, by have := k.isLt; have := kk.isLt; omega⟩

/-- One block's partial product for row `r` of the activations and row `o` of the weight. -/
def part (x2 : X2s.Idx → EReal) (W : Ws.Idx → EReal) (r : Fin 1024) (o : Fin 8192) (k : Fin 4) : EReal :=
  ∑ kk : Fin 2048, x2 (ix2 r (col k kk)) * W (ix2 o (col k kk))

/-- The K-blocked accumulation at (r, o): zero, plus the four partial products in order, plus the bias row at `o`. -/
def blockedAt (x2 : X2s.Idx → EReal) (W : Ws.Idx → EReal) (b2 : V2s.Idx → EReal) (r : Fin 1024) (o : Fin 8192) : EReal :=
  ((((0 + part x2 W r o 0) + part x2 W r o 1) + part x2 W r o 2) + part x2 W r o 3) + b2 (ix2 0 o)

/-- The K-blocked accumulation as an array of 1024 rows. -/
def blocked (x2 : X2s.Idx → EReal) (W : Ws.Idx → EReal) (b2 : V2s.Idx → EReal) : X2s.Idx → EReal :=
  fun j => blockedAt x2 W b2 ⟨(j 0).val, (j 0).isLt⟩ ⟨(j 1).val, (j 1).isLt⟩

end QLinear

end
-- ==== Proof.KI.Pay.lean ====
/-
  The two kernels' arithmetic read at an index over the extended reals. The dequantising kernel's stored value at row
  `r`, group `g`, lane `e` of its block is the code minus 128 times the group's scale, plus the rank-16 product
  times 2 (a change of float format is the identity). The matrix kernel's three stored values: the zero it resets its
  accumulator to; the accumulator plus the block's product of the activations with the transposed weight; and the
  accumulator plus the bias row.
-/
import proofs.«110360_j33578054320687_1_alg».proof.Proof.Gen.KernelIdeal.Skeleton
import proofs.«110360_j33578054320687_1_alg».proof.Proof.LibPlainDot
import proofs.«110360_j33578054320687_1_alg».proof.Proof.LibDotTransposedRhs
import proofs.«110360_j33578054320687_1_alg».proof.Proof.Spec
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- Column `g * 32 + e` of a 4096-column block. -/
def bcol (g : Fin 128) (e : Fin 32) : Fin 4096 := ⟨g.val * 32 + e.val, by have := g.isLt; have := e.isLt; omega⟩

/-- The dequantising kernel's dimension numbers are the plain ones: a 64×16 array times a 16×4096 array. -/
theorem dot0_eq : dot_S64x16_S16x4096_S64x4096_1_0_0_1_n_n = DotDims.plain 64 16 4096 := rfl

/-- The matrix kernel's dimension numbers contract both operands on their last axis: a 512×2048 array times the transpose
    of a 1024×2048 array. -/
theorem dot1_eq : dot_S512x2048_S1024x2048_S512x1024_1_1_0_0_n_n = DotDims.transposedRhs 512 2048 1024 := rfl

/-- The scales, given a unit lane axis and broadcast along the 32 lanes, read the scale at (r, g) whatever the lane:
    the broadcast reads lane 0 of the unit axis, and (r, g, 0) has the row-major position of (r, g). -/
theorem scale_apply (v4 : Vec Ideal S64x128 .f32) (r : Fin 64) (g : Fin 128) (e : Fin 32) :
    broadcastTo S64x128x32 (shapeCast S64x128x1 v4 shapeCasts_S64x128_S64x128x1) broadcasts_S64x128x1_S64x128x32 (ix3 r g e)
      = v4 (ix2 r g) := by
  refine (broadcastTo_apply _ broadcasts_S64x128x1_S64x128x32 (ix3 r g e) (ix3 r g (0 : Fin 1)) fun a => ?_).trans ?_
  · match a with
    | ⟨0, _⟩ => rfl
    | ⟨1, _⟩ => rfl
    | ⟨2, _⟩ => rfl
  · refine shapeCast_apply v4 shapeCasts_S64x128_S64x128x1 _ (ix2 r g) ?_
    rw [Shape.rowMajor_val_three, Shape.rowMajor_val_two]
    show r.val * 128 + g.val = (r.val * 128 + g.val) * 1 + 0
    omega

/-- The groups and lanes flattened into 4096 columns: column g * 32 + e of row r reads (r, g, e), the two having the
    same row-major position (r * 128 + g) * 32 + e = r * 4096 + (g * 32 + e). -/
theorem flat_apply {α : Type} (x : S64x128x32.Idx → α) (r : Fin 64) (g : Fin 128) (e : Fin 32) :
    shapeCast S64x4096 x shapeCasts_S64x128x32_S64x4096 (ix2 r (bcol g e)) = x (ix3 r g e) := by
  refine shapeCast_apply x shapeCasts_S64x128x32_S64x4096 _ (ix3 r g e) ?_
  rw [Shape.rowMajor_val_three, Shape.rowMajor_val_two]
  show (r.val * 128 + g.val) * 32 + e.val = r.val * 4096 + (g.val * 32 + e.val)
  omega

/-- The dequantising kernel's stored value at (r, g * 32 + e). -/
theorem dequant_apply (v0 : Vec Ideal S64x128x32 .i32) (v4 : Vec Ideal S64x128 .f32) (v9 : Vec Ideal S64x16 .f32) (v11 : Vec Ideal S16x4096 .f32)
    (r : Fin 64) (g : Fin 128) (e : Fin 32) :
    k0_pay1 (F := Ideal) v0 v4 v9 v11 (ix2 r (bcol g e))
      = ((((v0 (ix3 r g e)).toInt : ℝ) : EReal) - QLinear.zeroPoint) * v4 (ix2 r g)
        + (∑ k : Fin 16, v9 (ix2 r k) * v11 (ix2 k (bcol g e))) * QLinear.patchScale := by
  unfold k0_pay1
  -- the final change of format is the identity; the sum splits into the dequantised code and the patch
  refine (truncf_apply (ψ := .bf16) _ bitsLt_bf16_f32 _).trans ?_
  refine (addf_apply _ _ _).trans ?_
  congr 1
  · -- the flattened product of (code − 128) with the broadcast scale, read at (r, g, e)
    refine (flat_apply _ r g e).trans ?_
    refine (mulf_apply _ _ _).trans ?_
    congr 1
    exact scale_apply v4 r g e
  · -- the rank-16 product into zero is the sum over the contracted coordinate; then times 2
    refine (mulf_apply _ _ _).trans ?_
    congr 1
    rw [dot0_eq]
    exact PlainDot.matmul_zero_apply 64 16 4096 _ _ (ix2 r (bcol g e))

/-- The accumulator's reset value is zero everywhere. -/
theorem reset_apply (j : S512x1024.Idx) : k1_pay1 (F := Ideal) j = 0 := by
  unfold k1_pay1
  rw [shapeCast_self]
  exact Ideal.ofBits_zero_f32

/-- The accumulation step at (r, c): the accumulator there plus the sum over the block's 2048 columns of the
    activation at (r, k) times the weight at (c, k). -/
theorem accum_apply (v3 : Vec Ideal S512x2048 .f32) (v6 : Vec Ideal S1024x2048 .bf16) (v8 : Vec Ideal S512x1024 .f32)
    (r : Fin 512) (c : Fin 1024) :
    k1_pay2 (F := Ideal) v3 v6 v8 (ix2 r c) = v8 (ix2 r c) + ∑ k : Fin 2048, v3 (ix2 r k) * v6 (ix2 c k) := by
  unfold k1_pay2
  -- the three casts of a shape to itself are the identity
  rw [shapeCast_self, shapeCast_self, shapeCast_self]
  refine (addf_apply _ _ _).trans ?_
  congr 1
  rw [dot1_eq]
  exact TransposedRhsDot.matmul_zero_apply 512 2048 1024 _ _ r c

/-- The final value at (r, c): the accumulator there plus the bias row at c. -/
theorem finish_apply (v17 : Vec Ideal S512x1024 .f32) (v18 : Vec Ideal S1x1024 .f32) (r : Fin 512) (c : Fin 1024) :
    k1_pay3 (F := Ideal) v17 v18 (ix2 r c) = v17 (ix2 r c) + v18 (ix2 0 c) := by
  unfold k1_pay3
  rw [shapeCast_self]
  refine (addf_apply _ _ _).trans ?_
  congr 1
  -- the one-row bias broadcast to 512 rows reads row 0
  refine broadcastTo_apply v18 broadcasts_S1x1024_S512x1024 (ix2 r c) (ix2 0 c) fun a => ?_
  match a with
  | ⟨0, _⟩ => rfl
  | ⟨1, _⟩ => rfl

end Cert.KernelIdeal.Pay

end
-- ==== Proof.KI.Val0.lean ====
/-
  What the dequantising region leaves in the weight array, over the extended reals: at row `o`, column `i` the code at
  (o, i / 32, i % 32) minus 128, times the scale at (o, i / 32), plus twice the rank-16 product of the two low-rank
  factors at (o, i). Each grid point (a, b) writes back the 64 × 4096 block at rows 64a.., columns 4096b.., which is this
  function there; the 128 × 2 blocks cover the array.
-/
import proofs.«110360_j33578054320687_1_alg».proof.Proof.KI.Fold
import proofs.«110360_j33578054320687_1_alg».proof.Proof.KI.Pay
import proofs.«110360_j33578054320687_1_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The three zero offsets of a whole rank-3 buffer, as a constant function. -/
theorem hz3 : (![0, 0, 0] : Fin 3 → Nat) = fun _ => 0 := funext fun a => by fin_cases a <;> rfl

/-- Every column below 4096 is `g * 32 + e` for its group `g = col / 32` and lane `e = col % 32`. -/
theorem exists_bcol (col : Fin 4096) : ∃ (g : Fin 128) (e : Fin 32), col = Pay.bcol g e :=
  ⟨⟨col.val / 32, by omega⟩, ⟨col.val % 32, by omega⟩, Fin.ext (by show col.val = col.val / 32 * 32 + col.val % 32; omega)⟩

/-- ONE POINT'S BLOCK, over variables. Let the four input blocks `xq xs xa xb` be the arrays `Q Sc La Lb` read through
    index maps `eq es ea eb` that shift a block index by the block (A, B): codes and scales by (64 A, 128 B), the 16-row
    factor by 4096 B on its columns, the 16-column factor by 64 A on its rows. Then the kernel's stored value at
    (r, col) is the specification's weight at row `o = 64 A + r`, column `i = 4096 B + col`: with `col = g * 32 + e`
    the column's group is `128 B + g` and its lane `e`, and (sum) * 2 = 2 * (sum). -/
theorem point_value (Q : QLinear.Qs.Idx → BitVec 32) (Sc : QLinear.Ss.Idx → EReal) (La : QLinear.As.Idx → EReal) (Lb : QLinear.Bs.Idx → EReal)
    (xq : Vec Ideal S64x128x32 .i32) (xs : Vec Ideal S64x128 .f32) (xa : Vec Ideal S16x4096 .f32) (xb : Vec Ideal S64x16 .f32)
    (A B : Nat)
    (eq : S64x128x32.Idx → QLinear.Qs.Idx) (es : S64x128.Idx → QLinear.Ss.Idx) (ea : S16x4096.Idx → QLinear.As.Idx) (eb : S64x16.Idx → QLinear.Bs.Idx)
    (hq : ∀ j, xq j = Q (eq j)) (hs : ∀ j, xs j = Sc (es j)) (ha : ∀ j, xa j = La (ea j)) (hb : ∀ j, xb j = Lb (eb j))
    (q0 : ∀ j, (eq j 0).val = A * 64 + (j 0).val) (q1 : ∀ j, (eq j 1).val = B * 128 + (j 1).val) (q2 : ∀ j, (eq j 2).val = (j 2).val)
    (s0 : ∀ j, (es j 0).val = A * 64 + (j 0).val) (s1 : ∀ j, (es j 1).val = B * 128 + (j 1).val)
    (a0 : ∀ j, (ea j 0).val = (j 0).val) (a1 : ∀ j, (ea j 1).val = B * 4096 + (j 1).val)
    (b0 : ∀ j, (eb j 0).val = A * 64 + (j 0).val) (b1 : ∀ j, (eb j 1).val = (j 1).val)
    (r : Fin 64) (col : Fin 4096) (o i : Fin 8192) (ho : o.val = A * 64 + r.val) (hi : i.val = B * 4096 + col.val) :
    k0_pay1 (F := Ideal) xq xs xb xa (ix2 r col) = QLinear.weightAt Q Sc La Lb o i := by
  obtain ⟨g, e, rfl⟩ := exists_bcol col
  have hi' : i.val = B * 4096 + (g.val * 32 + e.val) := hi
  have hg := g.isLt
  have he := e.isLt
  refine (Pay.dequant_apply xq xs xb xa r g e).trans ?_
  unfold QLinear.weightAt
  -- the code's index (r, g, e) of the block is (o, group of i, lane of i) of the array
  have e1 : eq (ix3 r g e) = ix3 o (QLinear.grp i) (QLinear.lane i) := funext fun a => Fin.ext (by
    match a with
    | ⟨0, _⟩ => exact (q0 _).trans ho.symm
    | ⟨1, _⟩ => exact (q1 _).trans (by show B * 128 + g.val = i.val / 32; omega)
    | ⟨2, _⟩ => exact (q2 _).trans (by show e.val = i.val % 32; omega))
  -- the scale's index (r, g) is (o, group of i)
  have e2 : es (ix2 r g) = ix2 o (QLinear.grp i) := funext fun a => Fin.ext (by
    match a with
    | ⟨0, _⟩ => exact (s0 _).trans ho.symm
    | ⟨1, _⟩ => exact (s1 _).trans (by show B * 128 + g.val = i.val / 32; omega))
  -- the 16-column factor's index (r, k) is (o, k), the 16-row factor's (k, col) is (k, i)
  have e3 : ∀ k : Fin 16, eb (ix2 r k) = ix2 o k := fun k => funext fun a => Fin.ext (by
    match a with
    | ⟨0, _⟩ => exact (b0 _).trans ho.symm
    | ⟨1, _⟩ => exact b1 _)
  have e4 : ∀ k : Fin 16, ea (ix2 k (Pay.bcol g e)) = ix2 k i := fun k => funext fun a => Fin.ext (by
    match a with
    | ⟨0, _⟩ => exact a0 _
    | ⟨1, _⟩ => exact (a1 _).trans hi.symm)
  rw [hq, hs, e1, e2, mul_comm (∑ k : Fin 16, _) _]
  congr 2
  refine Finset.sum_congr rfl fun k _ => ?_
  rw [hb, ha, e3, e4]

/-- The windows' block indices over the 128 × 2 grid: the weight's block at point `t` is (t / 2, t % 2), the codes'
    and the scales' blocks move with it, the 16-row factor's with its column block, the 16-column factor's with its
    row block. -/
theorem idx_facts : ∀ t : Fin cfg0.N,
    win0_0.index t (0 : Fin 3) = win0_4.index t (0 : Fin 2) ∧ win0_0.index t (1 : Fin 3) = win0_4.index t (1 : Fin 2)
    ∧ win0_0.index t (2 : Fin 3) = 0
    ∧ win0_1.index t (0 : Fin 2) = win0_4.index t (0 : Fin 2) ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = win0_4.index t (0 : Fin 2) ∧ win0_3.index t (1 : Fin 2) = 0
    ∧ win0_4.index t (0 : Fin 2) = t.val / 2 ∧ win0_4.index t (1 : Fin 2) = t.val % 2 :=
  (by decide +kernel : ∀ t : Fin grid0.N, _)

/-- What point `t` writes back is block `t` of the specification's weight of the argument arrays. -/
theorem flushed_eq (c : Dev nD) (t : Fin cfg0.N) :
    (dat0 (V0 m) c).flushed 4 t = ((cfg0.win 4).blk t).view.read (Elt Ideal)
      (QLinear.weight (m ((c : Thread nD τ).loc main_arg1)) (m ((c : Thread nD τ).loc main_arg2))
          (m ((c : Thread nD τ).loc main_arg3)) (m ((c : Thread nD τ).loc main_arg4))) := by
  show (cfg0.win 4).cut (grid0.coords t) ((dat0 (V0 m) c).after 4 t) = _
  rw [after0_4]
  unfold wout
  -- the body's one whole-buffer store leaves its payload; its whole-buffer loads read the blocks
  rw [View.canon_unit_zero hz2]
  simp only [View.ld_unit_zero (S := S64x128x32) hz3, View.ld_unit_zero (S := S64x128) hz2, View.ld_unit_zero (S := S16x4096) hz2,
    View.ld_unit_zero (S := S64x16) hz2]
  obtain ⟨f0, f1, f2, f3, f4, f5, f6, f7, f8, f9, f10⟩ := idx_facts t
  refine funext fun (j : S64x4096.Idx) => ?_
  obtain ⟨r, col, rfl⟩ : ∃ (r : Fin 64) (col : Fin 4096), j = ix2 r col := ⟨j 0, j 1, eq_ix2 j⟩
  have hA : win0_4.index t (0 : Fin 2) < 128 := by rw [f9]; have : t.val < 256 := t.isLt; omega
  have hB : win0_4.index t (1 : Fin 2) < 2 := by rw [f10]; omega
  -- each input block reads its array at block index × block size + the index inside the block
  refine (point_value (m ((c : Thread nD τ).loc main_arg1)) (m ((c : Thread nD τ).loc main_arg2))
      (m ((c : Thread nD τ).loc main_arg3)) (m ((c : Thread nD τ).loc main_arg4))
      (iblk0 (V0 m) c 0 t) (iblk0 (V0 m) c 1 t) (iblk0 (V0 m) c 2 t) (iblk0 (V0 m) c 3 t)
      (win0_4.index t (0 : Fin 2)) (win0_4.index t (1 : Fin 2))
      ((cfg0.win 0).blk t).view.emb ((cfg0.win 1).blk t).view.emb ((cfg0.win 2).blk t).view.emb ((cfg0.win 3).blk t).view.emb
      (fun j => rfl) (fun j => rfl) (fun j => rfl) (fun j => rfl)
      (fun j => by show win0_0.index t (0 : Fin 3) * 64 + 1 * (j 0).val = _; omega)
      (fun j => by show win0_0.index t (1 : Fin 3) * 128 + 1 * (j 1).val = _; omega)
      (fun j => by show win0_0.index t (2 : Fin 3) * 32 + 1 * (j 2).val = _; omega)
      (fun j => by show win0_1.index t (0 : Fin 2) * 64 + 1 * (j 0).val = _; omega)
      (fun j => by show win0_1.index t (1 : Fin 2) * 128 + 1 * (j 1).val = _; omega)
      (fun j => by show win0_2.index t (0 : Fin 2) * 16 + 1 * (j 0).val = _; omega)
      (fun j => by show win0_2.index t (1 : Fin 2) * 4096 + 1 * (j 1).val = _; omega)
      (fun j => by show win0_3.index t (0 : Fin 2) * 64 + 1 * (j 0).val = _; omega)
      (fun j => by show win0_3.index t (1 : Fin 2) * 16 + 1 * (j 1).val = _; omega)
      r col ⟨win0_4.index t (0 : Fin 2) * 64 + r.val, by have := r.isLt; omega⟩
      ⟨win0_4.index t (1 : Fin 2) * 4096 + col.val, by have := col.isLt; omega⟩ rfl rfl).trans ?_
  -- and the weight's block at (r, col) is the array at that row and column
  show QLinear.weightAt _ _ _ _ _ _ = QLinear.weightAt _ _ _ _ _ _
  congr 1
  · exact Fin.ext (by show win0_4.index t (0 : Fin 2) * 64 + r.val = win0_4.index t (0 : Fin 2) * 64 + 1 * r.val; rw [Nat.one_mul])
  · exact Fin.ext (by show win0_4.index t (1 : Fin 2) * 4096 + col.val = win0_4.index t (1 : Fin 2) * 4096 + 1 * col.val; rw [Nat.one_mul])

/-- An index of the weight array is in point `t`'s block iff each coordinate is in the block's range on its axis. -/
theorem mem_blk (t : Fin cfg0.N) (i : S8192x8192.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v0).slice (win0_4.rect t)).set ↔ _
  rw [View.set_slice_whole, Rect.mem_set_unit]
  exact Iff.rfl

/-- The blocks cover the array: row `o`, column `i` lies in the block of the point (o / 64, i / 4096). -/
theorem cover (i : S8192x8192.Idx) : ∃ t : Fin cfg0.N, (cfg0.win 4).flush t = true ∧ i ∈ ((cfg0.win 4).blk t).view.set := by
  have h0 : (i 0).val < 8192 := (i 0).isLt
  have h1 : (i 1).val < 8192 := (i 1).isLt
  have hN : cfg0.N = 256 := N_0
  obtain ⟨t, ht⟩ : ∃ t : Fin cfg0.N, t.val = (i 0).val / 64 * 2 + (i 1).val / 4096 := ⟨⟨_, by rw [hN]; omega⟩, rfl⟩
  obtain ⟨-, -, -, -, -, -, -, -, -, f9, f10⟩ := idx_facts t
  refine ⟨t, flush0_4 t, ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 4096 ≤ (i 1).val ∧ (i 1).val < win0_4.index t (1 : Fin 2) * 4096 + 4096; omega

/-- After the dequantising region the weight array holds the specification's weight of the four argument arrays. -/
theorem region0_value (c : Dev nD) :
    (W1 m c (Proc.devRef .tc main_v0) : S8192x8192.Idx → EReal)
      = QLinear.weight (m ((c : Thread nD τ).loc main_arg1)) (m ((c : Thread nD τ).loc main_arg2))
          (m ((c : Thread nD τ).loc main_arg3)) (m ((c : Thread nD τ).loc main_arg4)) := by
  -- the weight array is the region's window 4; every point writes its block back, and the blocks cover the array
  refine (W1_arr m c 4).trans ?_
  exact (dat0 (V0 m) c).arrAt_eq_of_cover 4 _ (fun t _ => flushed_eq m c t) cover

end Cert.KernelIdeal.Hand

end
-- ==== Proof.KI.Val1.lean ====
/-
  What the matrix region leaves in its result array, over the extended reals: at row `r`, column `o` the four blocks'
  partial products of the activations' row r with the weight's row o, added in order onto zero, plus the bias row at o.
  The accumulator after a point holds the partial products of the run's blocks so far (by induction on the point); the
  last point of each run of four writes back the 512 × 1024 block of the result, and the 2 × 8 blocks cover the array.
-/
import proofs.«110360_j33578054320687_1_alg».proof.Proof.KI.Fold
import proofs.«110360_j33578054320687_1_alg».proof.Proof.KI.Pay
import proofs.«110360_j33578054320687_1_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The four accumulation steps of a run over the reset zero, read at (r, cc). -/
theorem run1_apply (a0 a1 a2 a3 : Vec Ideal S512x2048 .f32) (b0 b1 b2 b3 : Vec Ideal S1024x2048 .bf16)
    (r : Fin 512) (cc : Fin 1024) :
    k1_pay2 (F := Ideal) a3 b3 (k1_pay2 a2 b2 (k1_pay2 a1 b1 (k1_pay2 a0 b0 (k1_pay1 (F := Ideal))))) (ix2 r cc)
      = (((0 + ∑ kk : Fin 2048, a0 (ix2 r kk) * b0 (ix2 cc kk)) + ∑ kk : Fin 2048, a1 (ix2 r kk) * b1 (ix2 cc kk))
          + ∑ kk : Fin 2048, a2 (ix2 r kk) * b2 (ix2 cc kk)) + ∑ kk : Fin 2048, a3 (ix2 r kk) * b3 (ix2 cc kk) := by
  rw [Pay.accum_apply, Pay.accum_apply, Pay.accum_apply, Pay.accum_apply, Pay.reset_apply]

/-- The block indices of the four windows at a point, in closed form. -/
theorem idx1 : ∀ t : Fin cfg1.N,
    win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = 0 ∧ win1_2.index t (1 : Fin 2) = t.val / 4 % 8
    ∧ win1_3.index t (0 : Fin 2) = t.val / 32 ∧ win1_3.index t (1 : Fin 2) = t.val / 4 % 8 :=
  (by decide +kernel : ∀ t : Fin grid1.N, _)

/-- The same with each step's sum named. -/
theorem run1_apply' (a0 a1 a2 a3 : Vec Ideal S512x2048 .f32) (b0 b1 b2 b3 : Vec Ideal S1024x2048 .bf16)
    (r : Fin 512) (cc : Fin 1024) (p0 p1 p2 p3 : EReal)
    (h0 : ∑ kk : Fin 2048, a0 (ix2 r kk) * b0 (ix2 cc kk) = p0) (h1 : ∑ kk : Fin 2048, a1 (ix2 r kk) * b1 (ix2 cc kk) = p1)
    (h2 : ∑ kk : Fin 2048, a2 (ix2 r kk) * b2 (ix2 cc kk) = p2) (h3 : ∑ kk : Fin 2048, a3 (ix2 r kk) * b3 (ix2 cc kk) = p3) :
    k1_pay2 (F := Ideal) a3 b3 (k1_pay2 a2 b2 (k1_pay2 a1 b1 (k1_pay2 a0 b0 (k1_pay1 (F := Ideal))))) (ix2 r cc)
      = (((0 + p0) + p1) + p2) + p3 := by
  rw [run1_apply, h0, h1, h2, h3]

/- The contents of the core's buffers when the region is entered. -/
variable (V : (c : Dev nD) → (b : Ref sig .tc) → Buf (Elt Ideal) ((c : Thread nD τ).loc b))

/-- The activations' block at point s, at (r, kk): the array at row (s / 32) * 512 + r, column (s % 4) * 2048 + kk. -/
theorem xblk1_apply (c : Dev nD) (s : Fin cfg1.N) (r : Fin 512) (kk : Fin 2048) (R : Fin 1024) (I : Fin 8192)
    (hR : R.val = s.val / 32 * 512 + r.val) (hI : I.val = s.val % 4 * 2048 + kk.val) :
    (iblk1 V c 0 s : Vec Ideal S512x2048 .f32) (ix2 r kk) = (V c main_v1 : S1024x8192.Idx → EReal) (ix2 R I) := by
  obtain ⟨e0, e1, -⟩ := idx1 s
  unfold iblk1
  rw [View.read_apply]
  show V c main_v1 (((cfg1.win 0).blk s).view.emb (ix2 r kk)) = V c main_v1 (ix2 R I)
  refine congrArg (V c main_v1) (funext fun a => Fin.ext ?_)
  match a with
  | ⟨0, _⟩ => show win1_0.index s (0 : Fin 2) * 512 + 1 * r.val = R.val; omega
  | ⟨1, _⟩ => show win1_0.index s (1 : Fin 2) * 2048 + 1 * kk.val = I.val; omega

/-- The weight's block at point s, at (cc, kk): the array at row (s / 4 % 8) * 1024 + cc, column (s % 4) * 2048 + kk. -/
theorem wblk1_apply (c : Dev nD) (s : Fin cfg1.N) (cc : Fin 1024) (kk : Fin 2048) (O : Fin 8192) (I : Fin 8192)
    (hO : O.val = s.val / 4 % 8 * 1024 + cc.val) (hI : I.val = s.val % 4 * 2048 + kk.val) :
    (iblk1 V c 1 s : Vec Ideal S1024x2048 .bf16) (ix2 cc kk) = (V c main_v0 : S8192x8192.Idx → EReal) (ix2 O I) := by
  obtain ⟨-, -, e0, e1, -⟩ := idx1 s
  unfold iblk1
  rw [View.read_apply]
  show V c main_v0 (((cfg1.win 1).blk s).view.emb (ix2 cc kk)) = V c main_v0 (ix2 O I)
  refine congrArg (V c main_v0) (funext fun a => Fin.ext ?_)
  match a with
  | ⟨0, _⟩ => show win1_1.index s (0 : Fin 2) * 1024 + 1 * cc.val = O.val; omega
  | ⟨1, _⟩ => show win1_1.index s (1 : Fin 2) * 2048 + 1 * kk.val = I.val; omega

/-- The bias row's block at point s, at (0, cc): the row at column (s / 4 % 8) * 1024 + cc. -/
theorem bias1_apply (c : Dev nD) (s : Fin cfg1.N) (cc : Fin 1024) (O : Fin 8192)
    (hO : O.val = s.val / 4 % 8 * 1024 + cc.val) :
    (iblk1 V c 2 s : Vec Ideal S1x1024 .f32) (ix2 0 cc) = (V c main_v2 : S1x8192.Idx → EReal) (ix2 0 O) := by
  obtain ⟨-, -, -, -, e0, e1, -⟩ := idx1 s
  unfold iblk1
  rw [View.read_apply]
  show V c main_v2 (((cfg1.win 2).blk s).view.emb (ix2 0 cc)) = V c main_v2 (ix2 0 O)
  refine congrArg (V c main_v2) (funext fun a => Fin.ext ?_)
  match a with
  | ⟨0, _⟩ => show win1_2.index s (0 : Fin 2) * 1 + 1 * 0 = 0; omega
  | ⟨1, _⟩ => show win1_2.index s (1 : Fin 2) * 1024 + 1 * cc.val = O.val; omega

/-- The accumulator after a position does not depend on how the position is written. -/
theorem acc1_congr (c : Dev nD) {n n' : ℕ} (e : n = n') (hn : n < cfg1.N) (hn' : n' < cfg1.N) :
    acc V c n hn = acc V c n' hn' := by
  subst e; rfl

/-- A point that is not the first of its run adds its blocks' product to what the point before left. -/
theorem acc1_step (c : Dev nD) (s s' : Fin cfg1.N) (h : ¬s.val % 4 = 0) (e : s'.val + 1 = s.val) :
    acc V c s.val s.isLt = k1_pay2 (iblk1 V c 0 s) (iblk1 V c 1 s) (acc V c s'.val s'.isLt) :=
  (acc_next V c s h).trans (congrArg (k1_pay2 (iblk1 V c 0 s) (iblk1 V c 1 s)) (acc1_congr V c (by omega) _ _))

/-- The accumulator after the last point of a run: the four steps, over the reset zero, of the run's four points' blocks. -/
theorem acc1_last (c : Dev nD) (t0 t1 t2 t3 : Fin cfg1.N) (h0 : t0.val % 4 = 0) (e1 : t0.val + 1 = t1.val)
    (e2 : t1.val + 1 = t2.val) (e3 : t2.val + 1 = t3.val) :
    acc V c t3.val t3.isLt
      = k1_pay2 (iblk1 V c 0 t3) (iblk1 V c 1 t3) (k1_pay2 (iblk1 V c 0 t2) (iblk1 V c 1 t2)
          (k1_pay2 (iblk1 V c 0 t1) (iblk1 V c 1 t1) (k1_pay2 (iblk1 V c 0 t0) (iblk1 V c 1 t0) (k1_pay1 (F := Ideal))))) := by
  rw [acc1_step V c t3 t2 (by omega) e3, acc1_step V c t2 t1 (by omega) e2, acc1_step V c t1 t0 (by omega) e1,
    acc_first V c t0 h0]

/-- The activations' block at a point, as a 512 × 2048 array, -/
abbrev xblk1 (c : Dev nD) (s : Fin cfg1.N) : Vec Ideal S512x2048 .f32 := iblk1 V c 0 s
/-- and the weight's, as a 1024 × 2048 array. -/
abbrev wblk1 (c : Dev nD) (s : Fin cfg1.N) : Vec Ideal S1024x2048 .bf16 := iblk1 V c 1 s

/-- A point's product of its two blocks, at (r, cc): the partial product of the point's block of columns, at the
    array's row and the weight's row the point's blocks sit at. -/
theorem part1_apply (c : Dev nD) (s : Fin cfg1.N) (k : Fin 4) (r : Fin 512) (cc : Fin 1024) (R : Fin 1024) (O : Fin 8192)
    (hk : s.val % 4 = k.val) (hR : R.val = s.val / 32 * 512 + r.val) (hO : O.val = s.val / 4 % 8 * 1024 + cc.val) :
    ∑ kk : Fin 2048, xblk1 V c s (ix2 r kk) * wblk1 V c s (ix2 cc kk)
      = QLinear.part (V c main_v1) (V c main_v0) R O k := by
  unfold QLinear.part
  refine Finset.sum_congr rfl fun kk _ => ?_
  exact congrArg₂ (· * ·) (xblk1_apply V c s r kk R (QLinear.col k kk) hR (by show k.val * 2048 + kk.val = _; omega))
    (wblk1_apply V c s cc kk O (QLinear.col k kk) hO (by show k.val * 2048 + kk.val = _; omega))

/-- What the last point of a run writes back is its block of the K-blocked layer of the three arrays. -/
theorem flushed1_eq (c : Dev nD) (t : Fin cfg1.N) (hf : (cfg1.win 3).flush t = true) :
    (dat1 V c).flushed 3 t = ((cfg1.win 3).blk t).view.read (Elt Ideal)
      (QLinear.blocked (V c main_v1) (V c main_v0) (V c main_v2)) := by
  have h3 : t.val % 4 = 3 := (flush1_3 t).mp hf
  have hlt := t.isLt
  have hN : cfg1.N = 64 := N_1
  show (cfg1.win 3).cut (grid1.coords t) ((dat1 V c).after 3 t) = _
  rw [after1_3]
  funext j
  obtain ⟨r, cc, rfl⟩ : ∃ (r : Fin 512) (cc : Fin 1024), j = ix2 r cc := ⟨j 0, j 1, eq_ix2 j⟩
  have hr := r.isLt
  have hcc := cc.isLt
  obtain ⟨-, -, -, -, -, -, e0, e1⟩ := idx1 t
  refine Eq.trans (b := QLinear.blockedAt (V c main_v1) (V c main_v0) (V c main_v2)
    ⟨t.val / 32 * 512 + r.val, by omega⟩ ⟨t.val / 4 % 8 * 1024 + cc.val, by omega⟩) ?_ ?_
  · show k1_pay3 (acc V c t.val t.isLt) (iblk1 V c 2 t) (ix2 r cc) = _
    rw [Pay.finish_apply,
      acc1_last V c ⟨t.val - 3, by omega⟩ ⟨t.val - 2, by omega⟩ ⟨t.val - 1, by omega⟩ t (by show (t.val - 3) % 4 = 0; omega)
        (by show t.val - 3 + 1 = t.val - 2; omega) (by show t.val - 2 + 1 = t.val - 1; omega) (by show t.val - 1 + 1 = t.val; omega),
      bias1_apply V c t cc ⟨t.val / 4 % 8 * 1024 + cc.val, by omega⟩ rfl]
    unfold QLinear.blockedAt
    refine congrArg (· + V c main_v2 (ix2 0 ⟨t.val / 4 % 8 * 1024 + cc.val, by omega⟩)) ?_
    exact run1_apply' _ _ _ _ _ _ _ _ r cc _ _ _ _
      (part1_apply V c ⟨t.val - 3, by omega⟩ 0 r cc _ _ (by show (t.val - 3) % 4 = 0; omega) (by show t.val / 32 * 512 + r.val = (t.val - 3) / 32 * 512 + r.val; omega) (by show t.val / 4 % 8 * 1024 + cc.val = (t.val - 3) / 4 % 8 * 1024 + cc.val; omega))
      (part1_apply V c ⟨t.val - 2, by omega⟩ 1 r cc _ _ (by show (t.val - 2) % 4 = 1; omega) (by show t.val / 32 * 512 + r.val = (t.val - 2) / 32 * 512 + r.val; omega) (by show t.val / 4 % 8 * 1024 + cc.val = (t.val - 2) / 4 % 8 * 1024 + cc.val; omega))
      (part1_apply V c ⟨t.val - 1, by omega⟩ 2 r cc _ _ (by show (t.val - 1) % 4 = 2; omega) (by show t.val / 32 * 512 + r.val = (t.val - 1) / 32 * 512 + r.val; omega) (by show t.val / 4 % 8 * 1024 + cc.val = (t.val - 1) / 4 % 8 * 1024 + cc.val; omega))
      (part1_apply V c t 3 r cc _ _ h3 rfl rfl)
  · rw [View.read_apply]
    show _ = QLinear.blocked (V c main_v1) (V c main_v0) (V c main_v2) (((cfg1.win 3).blk t).view.emb (ix2 r cc))
    unfold QLinear.blocked
    refine congrArg₂ (QLinear.blockedAt (V c main_v1) (V c main_v0) (V c main_v2)) (Fin.ext ?_) (Fin.ext ?_)
    · show t.val / 32 * 512 + r.val = win1_3.index t (0 : Fin 2) * 512 + 1 * r.val; omega
    · show t.val / 4 % 8 * 1024 + cc.val = win1_3.index t (1 : Fin 2) * 1024 + 1 * cc.val; omega

/-- Every index of the result array lies in the block the last point of some run writes back: row R, column O in the
    block of the run with i = R / 512, j = O / 1024. -/
theorem cover1 (i : S1024x8192.Idx) :
    ∃ t : Fin cfg1.N, (cfg1.win 3).flush t = true ∧ i ∈ ((cfg1.win 3).blk t).view.set := by
  have hN : cfg1.N = 64 := N_1
  have h0 : (i 0).val < 1024 := (i 0).isLt
  have h1 : (i 1).val < 8192 := (i 1).isLt
  obtain ⟨t, ht⟩ : ∃ t : Fin cfg1.N, t.val = (i 0).val / 512 * 32 + (i 1).val / 1024 * 4 + 3 := ⟨⟨_, by omega⟩, rfl⟩
  obtain ⟨-, -, -, -, -, -, e0, e1⟩ := idx1 t
  refine ⟨t, (flush1_3 t).mpr (by omega), ?_⟩
  show i ∈ ((View.whole main_v3).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1024 ≤ (i 1).val ∧ (i 1).val < win1_3.index t (1 : Fin 2) * 1024 + 1024
    omega

/-- After the matrix region its result array holds the K-blocked layer of the three arrays it was entered with: the
    activations as 1024 rows, the weight array, the bias as one row. -/
theorem region1_value (c : Dev nD) :
    (W3 m c (Proc.devRef .tc main_v3) : S1024x8192.Idx → EReal)
      = QLinear.blocked (W2 m c (Proc.devRef .tc main_v1)) (W2 m c (Proc.devRef .tc main_v0)) (W2 m c (Proc.devRef .tc main_v2)) := by
  refine (W3_arr m c 3).trans ?_
  exact (dat1 (V2 m) c).arrAt_eq_of_cover 3 _ (flushed1_eq (V2 m) c) cover1

end Cert.KernelIdeal.Hand

end
-- ==== Proof.Algebra.lean ====
/-
  The law that joins the two arrangements of the layer: a sum over 8192 columns is the sum of its four consecutive
  blocks of 2048 columns, added in order onto zero (addition of extended reals is commutative and associative and zero
  is its unit, so no finiteness is needed); and the layer on activations laid out as 1024 rows, read back as
  4 × 256 rows, is the layer on the three-axis activations.
-/
import proofs.«110360_j33578054320687_1_alg».proof.Proof.Spec
import Mathlib.Logic.Equiv.Fin.Basic
import Mathlib.Data.Fintype.BigOperators
import Mathlib.Algebra.BigOperators.Fin

noncomputable section

open scoped BigOperators

namespace QLinear

open Idealize.ShloMosaic Idealize.ShloMosaic.ValueIdx

/-- The pair (block, column inside the block) as a column: the equivalence of `Fin 4 × Fin 2048` with `Fin 8192`
    sends `(k, kk)` to `col k kk`. -/
theorem finProdFinEquiv_eq_col (k : Fin 4) (kk : Fin 2048) :
    (finProdFinEquiv (k, kk) : Fin (4 * 2048)) = col k kk := by
  apply Fin.ext
  simp only [finProdFinEquiv, Equiv.coe_fn_mk, col]
  omega

/-- A sum over the 8192 columns is the sum over the four blocks of the sums over each block's 2048 columns. -/
theorem sum_blocks (f : Fin 8192 → EReal) :
    ∑ i : Fin 8192, f i = ∑ k : Fin 4, ∑ kk : Fin 2048, f (col k kk) := by
  have h : ∑ p : Fin 4 × Fin 2048, f (finProdFinEquiv p) = ∑ i : Fin (4 * 2048), f i :=
    Equiv.sum_comp (finProdFinEquiv : Fin 4 × Fin 2048 ≃ Fin (4 * 2048)) f
  refine h.symm.trans ?_
  rw [Fintype.sum_prod_type]
  refine Finset.sum_congr rfl fun k _ => Finset.sum_congr rfl fun kk _ => ?_
  rw [finProdFinEquiv_eq_col]

/-- The four blocks of 2048 columns, added in order onto zero, are the whole sum over 8192 columns. -/
theorem blockedAt_eq (x2 : X2s.Idx → EReal) (W : Ws.Idx → EReal) (b2 : V2s.Idx → EReal) (r : Fin 1024) (o : Fin 8192) :
    blockedAt x2 W b2 r o = (∑ i : Fin 8192, x2 (ix2 r i) * W (ix2 o i)) + b2 (ix2 0 o) := by
  rw [sum_blocks (fun i => x2 (ix2 r i) * W (ix2 o i)), Fin.sum_univ_four]
  simp only [blockedAt, part, zero_add]

/-- Row `b * 256 + s` of the 1024-row layout. -/
def row (b : Fin 4) (s : Fin 256) : Fin 1024 := ⟨b.val * 256 + s.val, by have := b.isLt; have := s.isLt; omega⟩

/-- The K-blocked layer on the 1024-row layout of the activations and the one-row layout of the bias, read back at
    (b, s, o), is the specification's layer. -/
theorem out_of_blocked (x : Xs.Idx → EReal) (W : Ws.Idx → EReal) (bias : Vs.Idx → EReal)
    (x2 : X2s.Idx → EReal) (b2 : V2s.Idx → EReal)
    (hx2 : ∀ (b : Fin 4) (s : Fin 256) (i : Fin 8192), x2 (ix2 (row b s) i) = x (ix3 b s i))
    (hb2 : ∀ o : Fin 8192, b2 (ix2 0 o) = bias (ix1 o)) (b : Fin 4) (s : Fin 256) (o : Fin 8192) :
    blockedAt x2 W b2 (row b s) o = outAt x W bias b s o := by
  rw [blockedAt_eq, hb2]
  simp only [outAt, hx2]

end QLinear

end
-- ==== Proof.KI.ValMain.lean ====
/-
  The program's result, over the extended reals: the specification's layer of the six argument arrays. The two reshapes
  before the matrix region lay the activations out as 1024 rows (row b * 256 + s is row s of batch b) and the bias as one
  row; the weight array is what the dequantising region left; the reshape after it reads row b * 256 + s back as (b, s);
  and the K-blocked sum is the whole sum.
-/
import proofs.«110360_j33578054320687_1_alg».proof.Proof.KI.Val0
import proofs.«110360_j33578054320687_1_alg».proof.Proof.KI.Val1
import proofs.«110360_j33578054320687_1_alg».proof.Proof.Algebra
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The final reshape reads row `b * 256 + s`, column `o` of the 1024-row result back as entry (b, s, o). -/
theorem result_at (c : Dev nD) (b : Fin 4) (s : Fin 256) (o : Fin 8192) :
    (W4 m c (Proc.devRef .tc main_v4) : S4x256x8192.Idx → EReal) (ix3 b s o)
      = (W3 m c (Proc.devRef .tc main_v3) : S1024x8192.Idx → EReal) (ix2 (QLinear.row b s) o) := by
  have e : (W4 m c (Proc.devRef .tc main_v4) : S4x256x8192.Idx → EReal)
      = shapeCast S4x256x8192 (W3 m c (Proc.devRef .tc main_v3) : S1024x8192.Idx → EReal) shapeCasts_S1024x8192_S4x256x8192 := by
    show StableHlo.after hostOps2 (W3 m c) (Proc.devRef .tc main_v4) = _
    after_results
    rfl
  rw [e]
  refine shapeCast_apply _ _ _ _ ?_
  show (S1024x8192.rowMajor (ix2 (QLinear.row b s) o)).val = (S4x256x8192.rowMajor (ix3 b s o)).val
  rw [Shape.rowMajor_val_two, Shape.rowMajor_val_three]
  rfl

/-- The activations as 1024 rows: row `b * 256 + s`, column `i` is the launch activation at (b, s, i). -/
theorem rows_at (c : Dev nD) (b : Fin 4) (s : Fin 256) (i : Fin 8192) :
    (W2 m c (Proc.devRef .tc main_v1) : S1024x8192.Idx → EReal) (ix2 (QLinear.row b s) i)
      = (m ((c : Thread nD τ).loc main_arg0) : S4x256x8192.Idx → EReal) (ix3 b s i) := by
  have e : (W2 m c (Proc.devRef .tc main_v1) : S1024x8192.Idx → EReal)
      = shapeCast S1024x8192 (W1 m c (Proc.devRef .tc main_arg0) : S4x256x8192.Idx → EReal) shapeCasts_S4x256x8192_S1024x8192 := by
    show StableHlo.after hostOps1 (W1 m c) (Proc.devRef .tc main_v1) = _
    after_results
    rfl
  have e0 : W1 m c (Proc.devRef .tc main_arg0) = m ((c : Thread nD τ).loc main_arg0) :=
    (W1_of_ne m c main_arg0 (by decide)).trans rfl
  rw [e, e0]
  refine shapeCast_apply _ _ _ _ ?_
  show (S4x256x8192.rowMajor (ix3 b s i)).val = (S1024x8192.rowMajor (ix2 (QLinear.row b s) i)).val
  rw [Shape.rowMajor_val_two, Shape.rowMajor_val_three]
  rfl

/-- The bias as one row: column `o` of the row is the launch bias at `o`. -/
theorem bias_at (c : Dev nD) (o : Fin 8192) :
    (W2 m c (Proc.devRef .tc main_v2) : S1x8192.Idx → EReal) (ix2 0 o)
      = (m ((c : Thread nD τ).loc main_arg5) : S8192.Idx → EReal) (ix1 o) := by
  have e : (W2 m c (Proc.devRef .tc main_v2) : S1x8192.Idx → EReal)
      = shapeCast S1x8192 (W1 m c (Proc.devRef .tc main_arg5) : S8192.Idx → EReal) shapeCasts_S8192_S1x8192 := by
    show StableHlo.after hostOps1 (W1 m c) (Proc.devRef .tc main_v2) = _
    after_results
    rfl
  have e5 : W1 m c (Proc.devRef .tc main_arg5) = m ((c : Thread nD τ).loc main_arg5) :=
    (W1_of_ne m c main_arg5 (by decide)).trans rfl
  rw [e, e5]
  refine shapeCast_apply _ _ _ _ ?_
  show (S8192.rowMajor (ix1 o)).val = (S1x8192.rowMajor (ix2 0 o)).val
  rw [Shape.rowMajor_val_two, Shape.rowMajor_val_one]
  show o.val = 0 * 8192 + o.val
  omega

/-- The two reshapes leave the weight array as the dequantising region left it. -/
theorem weight_kept (c : Dev nD) : W2 m c (Proc.devRef .tc main_v0) = W1 m c (Proc.devRef .tc main_v0) :=
  StableHlo.after_of_writes_sub hostOps1 _ hostOps1_writes (r := main_v0) (by decide)

/-- The result array ends at the specification's layer of the activations, the dequantised patched weight and the bias. -/
theorem result_value (c : Dev nD) :
    (W4 m c (Proc.devRef .tc main_v4) : S4x256x8192.Idx → EReal)
      = QLinear.out (m ((c : Thread nD τ).loc main_arg0))
          (QLinear.weight (m ((c : Thread nD τ).loc main_arg1)) (m ((c : Thread nD τ).loc main_arg2))
            (m ((c : Thread nD τ).loc main_arg3)) (m ((c : Thread nD τ).loc main_arg4)))
          (m ((c : Thread nD τ).loc main_arg5)) := by
  funext j
  obtain ⟨b, s, o, rfl⟩ : ∃ (b : Fin 4) (s : Fin 256) (o : Fin 8192), j = ix3 b s o := ⟨j 0, j 1, j 2, eq_ix3 j⟩
  rw [result_at, region1_value, weight_kept, region0_value]
  exact QLinear.out_of_blocked _ _ _ _ _ (rows_at m c) (bias_at m c) b s o

end Cert.KernelIdeal.Hand

end
-- ==== Proof.RefValue.lean ====
/-
  The reference's result is the layer of the specification: its composed term, read one operation at a time at an
  index, is the sum over the 8192 columns of the activation times the dequantised, patched weight, plus the bias.
-/
import proofs.«110360_j33578054320687_1_alg».proof.Proof.Gen.ReferenceIdeal.Read
import proofs.«110360_j33578054320687_1_alg».proof.Proof.Spec

noncomputable section

open scoped BigOperators

namespace Cert.ReferenceIdeal.RefValue

open Cert.ReferenceIdeal Cert.ReferenceIdeal.Read Idealize.ShloMosaic Idealize.ShloMosaic.ValueIdx

/-- The flat position of column `i` of row `o` splits into row `o`, group `i / 32` and lane `i % 32`. -/
theorem idx6_eq (o i : Fin 8192) : idx_main_v6 (ix2 o i) = ix3 o (QLinear.grp i) (QLinear.lane i) :=
  funext fun a => Fin.ext (by
    have ho : o.val < 8192 := o.isLt
    have hi : i.val < 8192 := i.isLt
    match a with
    | ⟨0, _⟩ => show (o.val * 8192 + i.val) / 8192 = o.val; omega
    | ⟨1, _⟩ => show (o.val * 8192 + i.val) / 32 % 256 = i.val / 32; omega
    | ⟨2, _⟩ => show (o.val * 8192 + i.val) % 32 = i.val % 32; omega)

/-- The scale of an element is the scale of its (row, group). -/
theorem idx34_eq (o : Fin 8192) (g : Fin 256) (l : Fin 32) : idx_main_v3 (idx_main_v4 (ix3 o g l)) = ix2 o g :=
  funext fun a => Fin.ext (by
    match a with
    | ⟨0, _⟩ => rfl
    | ⟨1, _⟩ => rfl)

/-- The rank-16 product reads row `o` of the left factor, -/
theorem lidx7_eq (o i : Fin 8192) (k : Fin 16) : lidx_main_v7 (ix2 o i) k = ix2 o k :=
  funext fun a => Fin.ext (by
    match a with
    | ⟨0, _⟩ => rfl
    | ⟨1, _⟩ => rfl)

/-- and column `i` of the right factor. -/
theorem ridx7_eq (o i : Fin 8192) (k : Fin 16) : ridx_main_v7 (ix2 o i) k = ix2 k i :=
  funext fun a => Fin.ext (by
    match a with
    | ⟨0, _⟩ => rfl
    | ⟨1, _⟩ => rfl)

/-- The reference's weight stage at row `o`, column `i` is the specification's weight there. -/
theorem weight_eq (x1 : (⟨S8192x256x32, .i32⟩ : BufTy).Contents (Elt Ideal)) (x2 : (⟨S8192x256, .f32⟩ : BufTy).Contents (Elt Ideal))
    (x3 : (⟨S16x8192, .f32⟩ : BufTy).Contents (Elt Ideal)) (x4 : (⟨S8192x16, .f32⟩ : BufTy).Contents (Elt Ideal)) (o i : Fin 8192) :
    val_main_v10 (F := Ideal) x1 x2 x3 x4 (ix2 o i) = QLinear.weightAt x1 x2 x3 x4 o i := by
  rw [val_main_v10_apply, val_main_v6_apply, val_main_v9_apply, val_main_v8_apply, val_main_v7_apply,
    val_main_cst_0_apply, idx6_eq, val_main_v5_apply, val_main_v2_apply, val_main_v4_apply, val_main_v3_apply,
    val_main_v0_apply, val_main_v1_apply, val_main_cst_apply, idx34_eq]
  simp only [lidx7_eq, ridx7_eq]
  rfl

/-- The activation of the product at (b, s, o) and column `k`, -/
theorem lidx11_eq (b : Fin 4) (s : Fin 256) (o k : Fin 8192) : lidx_main_v11 (ix3 b s o) k = ix3 b s k :=
  funext fun a => Fin.ext (by
    match a with
    | ⟨0, _⟩ => rfl
    | ⟨1, _⟩ => rfl
    | ⟨2, _⟩ => rfl)

/-- the weight's element there, -/
theorem ridx11_eq (b : Fin 4) (s : Fin 256) (o k : Fin 8192) : ridx_main_v11 (ix3 b s o) k = ix2 o k :=
  funext fun a => Fin.ext (by
    match a with
    | ⟨0, _⟩ => rfl
    | ⟨1, _⟩ => rfl)

/-- and the bias' element. -/
theorem idx1213_eq (b : Fin 4) (s : Fin 256) (o : Fin 8192) : idx_main_v12 (idx_main_v13 (ix3 b s o)) = ix1 o :=
  funext fun a => Fin.ext (by
    match a with
    | ⟨0, _⟩ => rfl)

/-- The reference's last stage, as a function of the six argument arrays, is the specification's layer. -/
theorem ref_eq (x0 : (⟨S4x256x8192, .f32⟩ : BufTy).Contents (Elt Ideal)) (x1 : (⟨S8192x256x32, .i32⟩ : BufTy).Contents (Elt Ideal))
    (x2 : (⟨S8192x256, .f32⟩ : BufTy).Contents (Elt Ideal)) (x3 : (⟨S16x8192, .f32⟩ : BufTy).Contents (Elt Ideal))
    (x4 : (⟨S8192x16, .f32⟩ : BufTy).Contents (Elt Ideal)) (x5 : (⟨S8192, .f32⟩ : BufTy).Contents (Elt Ideal)) :
    val_main_v14 (F := Ideal) x0 x1 x2 x3 x4 x5 = QLinear.out x0 (QLinear.weight x1 x2 x3 x4) x5 := by
  funext j
  obtain ⟨b, s, o, rfl⟩ : ∃ (b : Fin 4) (s : Fin 256) (o : Fin 8192), j = ix3 b s o := ⟨j 0, j 1, j 2, eq_ix3 j⟩
  rw [val_main_v14_apply, val_main_v11_apply, val_main_v13_apply, val_main_v12_apply, idx1213_eq]
  simp only [lidx11_eq, ridx11_eq, weight_eq]
  rfl

end Cert.ReferenceIdeal.RefValue

end
-- ==== Proof.lean ====
/-
  A block-quantised linear layer with a low-rank patch, as two kernels, against its plain reference.

  The weight is stored as integer codes in groups of 32 columns with one scale per row and group; both programs form,
  at row o and column i, (code − 128) · scale + 2 · (the rank-16 product of the two low-rank factors), and apply it to
  the activations: entry (b, s, o) of the result is the sum over the 8192 columns i of the activation at (b, s, i) times
  the weight at (o, i), plus the bias at o. The kernels compute the weight block by block in a first launch and the
  product in a second, over activations laid out as 1024 rows, with the sum taken in four blocks of 2048 columns
  accumulated in a scratch buffer from zero and the bias added at the last block; the reference takes one sum over all
  8192 columns. Over the extended reals a change of float format is the identity, addition is commutative and
  associative with unit zero and multiplication is commutative, so the two are one function of the arguments; no
  finiteness of the inputs is used.

  The frames: each kernel program is run region by region (its own body run at every grid point, the matrix kernel's
  accumulator carried in the region's invariant), the reference by its list of host operations. The idealization rewrote
  nothing, so what it preserves is trivially true.
-/
import proofs.«110360_j33578054320687_1_alg».proof.Defs
import proofs.«110360_j33578054320687_1_alg».proof.Proof.Gen.Kernel
import proofs.«110360_j33578054320687_1_alg».proof.Proof.Gen.KernelIdeal
import proofs.«110360_j33578054320687_1_alg».proof.Proof.Gen.ReferenceIdeal
import proofs.«110360_j33578054320687_1_alg».proof.Proof.Gen.Pre_finite_inputs
import proofs.«110360_j33578054320687_1_alg».proof.Proof.K.Run
import proofs.«110360_j33578054320687_1_alg».proof.Proof.KI.Run
import proofs.«110360_j33578054320687_1_alg».proof.Proof.KI.ValMain
import proofs.«110360_j33578054320687_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the layer of the specification in their
    result arrays: the kernels' by the values their two regions leave and the law joining the blocked sum to the whole
    one, the reference's by reading its operations one at a time. -/
theorem algebraic : Cert.algebraic_KernelIdeal_ReferenceIdeal := by
  intro m ρ m' ρ' _ hagree
  refine ⟨fun c => Cert.KernelIdeal.Hand.W4 m c (Proc.devRef .tc Cert.KernelIdeal.main_v4),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq,
    (hagree c).1, (hagree c).2.1, (hagree c).2.2.1, (hagree c).2.2.2.1, (hagree c).2.2.2.2.1, (hagree c).2.2.2.2.2]
  exact (Cert.KernelIdeal.Hand.result_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
